-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256x64x64 : Shape := ⟨3, ![256, 64, 64]⟩
abbrev S4x64x64x512 : Shape := ⟨4, ![4, 64, 64, 512]⟩
abbrev S4x64x64x64x64 : Shape := ⟨5, ![4, 64, 64, 64, 64]⟩
abbrev S4x64x64 : Shape := ⟨3, ![4, 64, 64]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S256x64x64 : S_.BroadcastsInDim S256x64x64 (![] : Fin 0 → Fin S256x64x64.rank)
  reducesTo_S256x64x64_S_d0_1_2 : S256x64x64.ReducesTo [0, 1, 2] S_
  bcast_S_S4x64x64x512 : S_.BroadcastsInDim S4x64x64x512 (![] : Fin 0 → Fin S4x64x64x512.rank)
  reducesTo_S4x64x64x512_S_d0_1_2_3 : S4x64x64x512.ReducesTo [0, 1, 2, 3] S_
  bcast_S_S4x64x64x64x64 : S_.BroadcastsInDim S4x64x64x64x64 (![] : Fin 0 → Fin S4x64x64x64x64.rank)
  reducesTo_S4x64x64x64x64_S_d0_1_2_3_4 : S4x64x64x64x64.ReducesTo [0, 1, 2, 3, 4] S_
  bcast_S_S4x64x64 : S_.BroadcastsInDim S4x64x64 (![] : Fin 0 → Fin S4x64x64.rank)
  reducesTo_S4x64x64_S_d0_1_2 : S4x64x64.ReducesTo [0, 1, 2] S_

variable [Facts]

def fn_part2 {F : FTy → Type} [FloatOps F] (main_arg7 : FVec F S4x64x64 .f32) (main_arg8 : FVec F S4x64x64 .f32) (main_arg9 : FVec F S4x64x64 .f32) (main_v33 : IVec S_ 1) : IVec S_ 1 :=
  let main_v34 : FVec F S4x64x64 .f32 := Host.absf main_arg7
  let main_cst_12 : FVec F S_ .f32 := constant S_ .f32 0x7F800000#32
  let main_v35 : FVec F S4x64x64 .f32 := broadcastInDim S4x64x64 ![] bcast_S_S4x64x64 main_cst_12
  let main_v36 : IVec S4x64x64 1 := cmpf .olt main_v34 main_v35
  let main_c_13 : IVec S_ 1 := constantI S_ 1 1#1
  let main_v37 : IVec S_ 1 := (fun x v => Host.reduce IntOp.andi x v reducesTo_S4x64x64_S_d0_1_2 h_S_) main_v36 main_c_13
  let main_v38 : IVec S_ 1 := andi main_v33 main_v37
  let main_v39 : FVec F S4x64x64 .f32 := Host.absf main_arg8
  let main_cst_14 : FVec F S_ .f32 := constant S_ .f32 0x7F800000#32
  let main_v40 : FVec F S4x64x64 .f32 := broadcastInDim S4x64x64 ![] bcast_S_S4x64x64 main_cst_14
  let main_v41 : IVec S4x64x64 1 := cmpf .olt main_v39 main_v40
  let main_c_15 : IVec S_ 1 := constantI S_ 1 1#1
  let main_v42 : IVec S_ 1 := (fun x v => Host.reduce IntOp.andi x v reducesTo_S4x64x64_S_d0_1_2 h_S_) main_v41 main_c_15
  let main_v43 : IVec S_ 1 := andi main_v38 main_v42
  let main_v44 : FVec F S4x64x64 .f32 := Host.absf main_arg9
  let main_cst_16 : FVec F S_ .f32 := constant S_ .f32 0x7F800000#32
  let main_v45 : FVec F S4x64x64 .f32 := broadcastInDim S4x64x64 ![] bcast_S_S4x64x64 main_cst_16
  let main_v46 : IVec S4x64x64 1 := cmpf .olt main_v44 main_v45
  let main_c_17 : IVec S_ 1 := constantI S_ 1 1#1
  let main_v47 : IVec S_ 1 := (fun x v => Host.reduce IntOp.andi x v reducesTo_S4x64x64_S_d0_1_2 h_S_) main_v46 main_c_17
  let main_v48 : IVec S_ 1 := andi main_v43 main_v47
  main_v48

def fn_part1 {F : FTy → Type} [FloatOps F] (main_arg4 : FVec F S4x64x64x512 .f32) (main_arg5 : FVec F S4x64x64x64x64 .f32) (main_arg6 : FVec F S4x64x64x512 .f32) (main_arg7 : FVec F S4x64x64 .f32) (main_arg8 : FVec F S4x64x64 .f32) (main_arg9 : FVec F S4x64x64 .f32) (main_v13 : IVec S_ 1) (main_v16 : IVec S256x64x64 1) : IVec S_ 1 :=
  let main_c_5 : IVec S_ 1 := constantI S_ 1 1#1
  let main_v17 : IVec S_ 1 := (fun x v => Host.reduce IntOp.andi x v reducesTo_S256x64x64_S_d0_1_2 h_S_) main_v16 main_c_5
  let main_v18 : IVec S_ 1 := andi main_v13 main_v17
  let main_v19 : FVec F S4x64x64x512 .f32 := Host.absf main_arg4
  let main_cst_6 : FVec F S_ .f32 := constant S_ .f32 0x7F800000#32
  let main_v20 : FVec F S4x64x64x512 .f32 := broadcastInDim S4x64x64x512 ![] bcast_S_S4x64x64x512 main_cst_6
  let main_v21 : IVec S4x64x64x512 1 := cmpf .olt main_v19 main_v20
  let main_c_7 : IVec S_ 1 := constantI S_ 1 1#1
  let main_v22 : IVec S_ 1 := (fun x v => Host.reduce IntOp.andi x v reducesTo_S4x64x64x512_S_d0_1_2_3 h_S_) main_v21 main_c_7
  let main_v23 : IVec S_ 1 := andi main_v18 main_v22
  let main_v24 : FVec F S4x64x64x64x64 .f32 := Host.absf main_arg5
  let main_cst_8 : FVec F S_ .f32 := constant S_ .f32 0x7F800000#32
  let main_v25 : FVec F S4x64x64x64x64 .f32 := broadcastInDim S4x64x64x64x64 ![] bcast_S_S4x64x64x64x64 main_cst_8
  let main_v26 : IVec S4x64x64x64x64 1 := cmpf .olt main_v24 main_v25
  let main_c_9 : IVec S_ 1 := constantI S_ 1 1#1
  let main_v27 : IVec S_ 1 := (fun x v => Host.reduce IntOp.andi x v reducesTo_S4x64x64x64x64_S_d0_1_2_3_4 h_S_) main_v26 main_c_9
  let main_v28 : IVec S_ 1 := andi main_v23 main_v27
  let main_v29 : FVec F S4x64x64x512 .f32 := Host.absf main_arg6
  let main_cst_10 : FVec F S_ .f32 := constant S_ .f32 0x7F800000#32
  let main_v30 : FVec F S4x64x64x512 .f32 := broadcastInDim S4x64x64x512 ![] bcast_S_S4x64x64x512 main_cst_10
  let main_v31 : IVec S4x64x64x512 1 := cmpf .olt main_v29 main_v30
  let main_c_11 : IVec S_ 1 := constantI S_ 1 1#1
  let main_v32 : IVec S_ 1 := (fun x v => Host.reduce IntOp.andi x v reducesTo_S4x64x64x512_S_d0_1_2_3 h_S_) main_v31 main_c_11
  let main_v33 : IVec S_ 1 := andi main_v28 main_v32
  fn_part2 (F := F) main_arg7 main_arg8 main_arg9 main_v33

def fn {F : FTy → Type} [FloatOps F] (main_arg0 : FVec F S256x512 .f32) (main_arg1 : FVec F S256x64x64 .f32) (main_arg2 : FVec F S256x512 .f32) (main_arg3 : FVec F S256x64x64 .f32) (main_arg4 : FVec F S4x64x64x512 .f32) (main_arg5 : FVec F S4x64x64x64x64 .f32) (main_arg6 : FVec F S4x64x64x512 .f32) (main_arg7 : FVec F S4x64x64 .f32) (main_arg8 : FVec F S4x64x64 .f32) (main_arg9 : FVec F S4x64x64 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x64x64 .f32 := Host.absf main_arg1
  let main_cst_0 : FVec F S_ .f32 := constant S_ .f32 0x7F800000#32
  let main_v5 : FVec F S256x64x64 .f32 := broadcastInDim S256x64x64 ![] bcast_S_S256x64x64 main_cst_0
  let main_v6 : IVec S256x64x64 1 := cmpf .olt main_v4 main_v5
  let main_c_1 : IVec S_ 1 := constantI S_ 1 1#1
  let main_v7 : IVec S_ 1 := (fun x v => Host.reduce IntOp.andi x v reducesTo_S256x64x64_S_d0_1_2 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x64x64 .f32 := Host.absf main_arg3
  let main_cst_4 : FVec F S_ .f32 := constant S_ .f32 0x7F800000#32
  let main_v15 : FVec F S256x64x64 .f32 := broadcastInDim S256x64x64 ![] bcast_S_S256x64x64 main_cst_4
  let main_v16 : IVec S256x64x64 1 := cmpf .olt main_v14 main_v15
  fn_part1 (F := F) main_arg4 main_arg5 main_arg6 main_arg7 main_arg8 main_arg9 main_v13 main_v16
-- ==== Kernel.lean ====
abbrev S256x512 : Shape := ⟨2, ![256, 512]⟩
abbrev S256x64x64 : Shape := ⟨3, ![256, 64, 64]⟩
abbrev S4x64x64x512 : Shape := ⟨4, ![4, 64, 64, 512]⟩
abbrev S4x64x64x64x64 : Shape := ⟨5, ![4, 64, 64, 64, 64]⟩
abbrev S4x64x64 : Shape := ⟨3, ![4, 64, 64]⟩
abbrev S4x4096x512 : Shape := ⟨3, ![4, 4096, 512]⟩
abbrev S4x4096x4096 : Shape := ⟨3, ![4, 4096, 4096]⟩
abbrev S256x4096 : Shape := ⟨2, ![256, 4096]⟩
abbrev S4x1x4096 : Shape := ⟨3, ![4, 1, 4096]⟩
abbrev S4x256x4096 : Shape := ⟨3, ![4, 256, 4096]⟩
abbrev S1x256x512 : Shape := ⟨3, ![1, 256, 512]⟩
abbrev S1x256x4096 : Shape := ⟨3, ![1, 256, 4096]⟩
abbrev S1x1x256 : Shape := ⟨3, ![1, 1, 256]⟩
abbrev S1x256x256 : Shape := ⟨3, ![1, 256, 256]⟩
abbrev S512x256 : Shape := ⟨2, ![512, 256]⟩
abbrev S256x256 : Shape := ⟨2, ![256, 256]⟩
abbrev S4096x256 : Shape := ⟨2, ![4096, 256]⟩
abbrev S1x256 : Shape := ⟨2, ![1, 256]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 23
  | .vmem => 21
  | .smem => 0
  | _ => 0

abbrev bufTy : (tb : Table) → Fin (tcTables nBuf tb) → BufTy
  | .hbm, ⟨0, _⟩ => ⟨S256x512, .f32⟩
  | .hbm, ⟨1, _⟩ => ⟨S256x64x64, .f32⟩
  | .hbm, ⟨2, _⟩ => ⟨S256x512, .f32⟩
  | .hbm, ⟨3, _⟩ => ⟨S256x64x64, .f32⟩
  | .hbm, ⟨4, _⟩ => ⟨S4x64x64x512, .f32⟩
  | .hbm, ⟨5, _⟩ => ⟨S4x64x64x64x64, .f32⟩
  | .hbm, ⟨6, _⟩ => ⟨S4x64x64x512, .f32⟩
  | .hbm, ⟨7, _⟩ => ⟨S4x64x64, .f32⟩
  | .hbm, ⟨8, _⟩ => ⟨S4x64x64, .f32⟩
  | .hbm, ⟨9, _⟩ => ⟨S4x64x64, .f32⟩
  | .hbm, ⟨10, _⟩ => ⟨S4x4096x512, .f32⟩
  | .hbm, ⟨11, _⟩ => ⟨S4x4096x512, .f32⟩
  | .hbm, ⟨12, _⟩ => ⟨S4x4096x4096, .f32⟩
  | .hbm, ⟨13, _⟩ => ⟨S256x4096, .f32⟩
  | .hbm, ⟨14, _⟩ => ⟨S256x4096, .f32⟩
  | .hbm, ⟨15, _⟩ => ⟨S4x64x64, .f32⟩
  | .hbm, ⟨16, _⟩ => ⟨S4x64x64, .f32⟩
  | .hbm, ⟨17, _⟩ => ⟨S4x1x4096, .f32⟩
  | .hbm, ⟨18, _⟩ => ⟨S4x256x4096, .f32⟩
  | .hbm, ⟨19, _⟩ => ⟨S256x4096, .f32⟩
  | .hbm, ⟨20, _⟩ => ⟨S256x4096, .f32⟩
  | .hbm, ⟨21, _⟩ => ⟨S256x64x64, .f32⟩
  | .hbm, ⟨22, _⟩ => ⟨S256x64x64, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x4096, .f32⟩
  | .local _ .vmem, ⟨5, _⟩ => ⟨S1x256x4096, .f32⟩
  | .local _ .vmem, ⟨6, _⟩ => ⟨S256x512, .f32⟩
  | .local _ .vmem, ⟨7, _⟩ => ⟨S256x512, .f32⟩
  | .local _ .vmem, ⟨8, _⟩ => ⟨S256x4096, .f32⟩
  | .local _ .vmem, ⟨9, _⟩ => ⟨S1x1x256, .f32⟩
  | .local _ .vmem, ⟨10, _⟩ => ⟨S1x1x256, .f32⟩
  | .local _ .vmem, ⟨11, _⟩ => ⟨S1x256x256, .f32⟩
  | .local _ .vmem, ⟨12, _⟩ => ⟨S1x256x256, .f32⟩
  | .local _ .vmem, ⟨13, _⟩ => ⟨S4x256x1024, .f32⟩
  | .local _ .vmem, ⟨14, _⟩ => ⟨S4x256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4x64x64x512_S4x4096x512 : S4x64x64x512.ShapeCasts S4x4096x512
  shapeCasts_S4x64x64x64x64_S4x4096x4096 : S4x64x64x64x64.ShapeCasts S4x4096x4096
  shapeCasts_S256x64x64_S256x4096 : S256x64x64.ShapeCasts S256x4096
  shapeCasts_S4x64x64_S4x1x4096 : S4x64x64.ShapeCasts S4x1x4096
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  bitsLt_bf16_f32 : FTy.bits .bf16 < FTy.bits .f32
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S256x512_S256x512_0_0 : ∀ a, (![0, 0] : Fin 2 → Nat) a + S256x512.size a ≤ S256x512.size a
  h_S256x512 : 0 < S256x512.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  transposes_S256x512_p1_0_S512x256 : S256x512.Transposes [1, 0] S512x256
  transposes_S256x4096_p1_0_S4096x256 : S256x4096.Transposes [1, 0] S4096x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S256x256 : S1x256.Broadcasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S4x256x1024_S1x256x1024_0_0_0 : ∀ a, (![0, 0, 0] : Fin 3 → Nat) a + S1x256x1024.size a ≤ S4x256x1024.size a
  h_S1x256x1024 : 0 < S1x256x1024.numel
  shapeCasts_S1x256x1024_S256x1024 : S1x256x1024.ShapeCasts S256x1024
  inb_S4x256x1024_S1x256x1024_1_0_0 : ∀ a, (![1, 0, 0] : Fin 3 → Nat) a + S1x256x1024.size a ≤ S4x256x1024.size a
  inb_S4x256x1024_S1x256x1024_2_0_0 : ∀ a, (![2, 0, 0] : Fin 3 → Nat) a + S1x256x1024.size a ≤ S4x256x1024.size a
  inb_S4x256x1024_S1x256x1024_3_0_0 : ∀ a, (![3, 0, 0] : Fin 3 → Nat) a + S1x256x1024.size a ≤ S4x256x1024.size a
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S256x4096_S256x64x64 : S256x4096.ShapeCasts S256x64x64
  dot_S256x512_S512x256_S256x256_1_0_0_1_n_n_wf : DotDims.WF S256x512 S512x256 S256x256 [1] [0] [0] [1] [] []
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S4x4096x512.size a
  hwx0_0 : ∀ i : grid0.Coords, EltTy.bits .f32 = 32 ∨ (Rect.block (s := S4x4096x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S4x4096x512.size a
  hwx0_1 : ∀ i : grid0.Coords, EltTy.bits .f32 = 32 ∨ (Rect.block (s := S4x4096x512) S1x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4096.size a ≤ S4x4096x4096.size a
  hwx0_2 : ∀ i : grid0.Coords, EltTy.bits .f32 = 32 ∨ (Rect.block (s := S4x4096x4096) S1x256x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S256x4096.size a
  hwx0_5 : ∀ i : grid0.Coords, EltTy.bits .f32 = 32 ∨ (Rect.block (s := S256x4096) S256x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S4x1x4096.size a
  hwx0_6 : ∀ i : grid0.Coords, EltTy.bits .f32 = 32 ∨ (Rect.block (s := S4x1x4096) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x256.size a ≤ S4x256x4096.size a
  hwx0_7 : ∀ i : grid0.Coords, EltTy.bits .f32 = 32 ∨ (Rect.block (s := S4x256x4096) S1x256x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x256x1024.size a ≤ S4x256x4096.size a
  hwx1_0 : ∀ i : grid1.Coords, EltTy.bits .f32 = 32 ∨ (Rect.block (s := S4x256x4096) S4x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S256x4096.size a
  hwx1_1 : ∀ i : grid1.Coords, EltTy.bits .f32 = 32 ∨ (Rect.block (s := S256x4096) S256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x4096.size a
  hwx1_2 : ∀ i : grid1.Coords, EltTy.bits .f32 = 32 ∨ (Rect.block (s := S256x4096) S256x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x4096.size a
  hwx1_3 : ∀ i : grid1.Coords, EltTy.bits .f32 = 32 ∨ (Rect.block (s := S256x4096) S256x1024.size (cc1_transform_3 i) (hinb1_3 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_v1) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x256x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v8) S4x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_0) S256x1024.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9_1) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S256x512 : Shape := ⟨2, ![256, 512]⟩
abbrev S256x64x64 : Shape := ⟨3, ![256, 64, 64]⟩
abbrev S4x64x64x512 : Shape := ⟨4, ![4, 64, 64, 512]⟩
abbrev S4x64x64x64x64 : Shape := ⟨5, ![4, 64, 64, 64, 64]⟩
abbrev S4x64x64 : Shape := ⟨3, ![4, 64, 64]⟩
abbrev S256x4x64x64 : Shape := ⟨4, ![256, 4, 64, 64]⟩
abbrev S4x256x64x64 : Shape := ⟨4, ![4, 256, 64, 64]⟩
abbrev S4x4096x4096 : Shape := ⟨3, ![4, 4096, 4096]⟩
abbrev S256x4096 : Shape := ⟨2, ![256, 4096]⟩
abbrev S256x4x4096 : Shape := ⟨3, ![256, 4, 4096]⟩
abbrev S4x256x4096 : Shape := ⟨3, ![4, 256, 4096]⟩
abbrev S4x1x64x64 : Shape := ⟨4, ![4, 1, 64, 64]⟩
abbrev S1x256x64x64 : Shape := ⟨4, ![1, 256, 64, 64]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x64x64, .f32⟩
  | .hbm, ⟨2, _⟩ => ⟨S256x512, .f32⟩
  | .hbm, ⟨3, _⟩ => ⟨S256x64x64, .f32⟩
  | .hbm, ⟨4, _⟩ => ⟨S4x64x64x512, .f32⟩
  | .hbm, ⟨5, _⟩ => ⟨S4x64x64x64x64, .f32⟩
  | .hbm, ⟨6, _⟩ => ⟨S4x64x64x512, .f32⟩
  | .hbm, ⟨7, _⟩ => ⟨S4x64x64, .f32⟩
  | .hbm, ⟨8, _⟩ => ⟨S4x64x64, .f32⟩
  | .hbm, ⟨9, _⟩ => ⟨S4x64x64, .f32⟩
  | .hbm, ⟨10, _⟩ => ⟨S256x4x64x64, .f32⟩
  | .hbm, ⟨11, _⟩ => ⟨S4x256x64x64, .f32⟩
  | .hbm, ⟨12, _⟩ => ⟨S256x4x64x64, .f32⟩
  | .hbm, ⟨13, _⟩ => ⟨S4x256x64x64, .f32⟩
  | .hbm, ⟨14, _⟩ => ⟨S4x4096x4096, .f32⟩
  | .hbm, ⟨15, _⟩ => ⟨S256x4096, .f32⟩
  | .hbm, ⟨16, _⟩ => ⟨S256x4x4096, .f32⟩
  | .hbm, ⟨17, _⟩ => ⟨S4x256x4096, .f32⟩
  | .hbm, ⟨18, _⟩ => ⟨S4x256x64x64, .f32⟩
  | .hbm, ⟨19, _⟩ => ⟨S4x256x64x64, .f32⟩
  | .hbm, ⟨20, _⟩ => ⟨S4x256x64x64, .f32⟩
  | .hbm, ⟨21, _⟩ => ⟨S4x64x64, .f32⟩
  | .hbm, ⟨22, _⟩ => ⟨S4x64x64, .f32⟩
  | .hbm, ⟨23, _⟩ => ⟨S4x1x64x64, .f32⟩
  | .hbm, ⟨24, _⟩ => ⟨S4x256x64x64, .f32⟩
  | .hbm, ⟨25, _⟩ => ⟨S4x256x64x64, .f32⟩
  | .hbm, ⟨26, _⟩ => ⟨S1x256x64x64, .f32⟩
  | .hbm, ⟨27, _⟩ => ⟨S256x64x64, .f32⟩
  | .hbm, ⟨28, _⟩ => ⟨S256x64x64, .f32⟩
  | .hbm, ⟨29, _⟩ => ⟨S256x64x64, .f32⟩
  | .hbm, ⟨30, _⟩ => ⟨S_, .f32⟩
  | .hbm, ⟨31, _⟩ => ⟨S256x64x64, .f32⟩
  | .hbm, ⟨32, _⟩ => ⟨S256x64x64, .f32⟩
  | .hbm, ⟨33, _⟩ => ⟨S_, .f32⟩
  | .hbm, ⟨34, _⟩ => ⟨S256x64x64, .f32⟩
  | .hbm, ⟨35, _⟩ => ⟨S256x64x64, .f32⟩
  | .hbm, ⟨36, _⟩ => ⟨S1x256x64x64, .f32⟩
  | .hbm, ⟨37, _⟩ => ⟨S256x64x64, .f32⟩
  | .hbm, ⟨38, _⟩ => ⟨S256x64x64, .f32⟩
  | .hbm, ⟨39, _⟩ => ⟨S256x64x64, .f32⟩
  | .hbm, ⟨40, _⟩ => ⟨S_, .f32⟩
  | .hbm, ⟨41, _⟩ => ⟨S256x64x64, .f32⟩
  | .hbm, ⟨42, _⟩ => ⟨S256x64x64, .f32⟩
  | .hbm, ⟨43, _⟩ => ⟨S_, .f32⟩
  | .hbm, ⟨44, _⟩ => ⟨S256x64x64, .f32⟩
  | .hbm, ⟨45, _⟩ => ⟨S256x64x64, .f32⟩
  | .hbm, ⟨46, _⟩ => ⟨S1x256x64x64, .f32⟩
  | .hbm, ⟨47, _⟩ => ⟨S256x64x64, .f32⟩
  | .hbm, ⟨48, _⟩ => ⟨S256x64x64, .f32⟩
  | .hbm, ⟨49, _⟩ => ⟨S256x64x64, .f32⟩
  | .hbm, ⟨50, _⟩ => ⟨S_, .f32⟩
  | .hbm, ⟨51, _⟩ => ⟨S256x64x64, .f32⟩
  | .hbm, ⟨52, _⟩ => ⟨S256x64x64, .f32⟩
  | .hbm, ⟨53, _⟩ => ⟨S_, .f32⟩
  | .hbm, ⟨54, _⟩ => ⟨S256x64x64, .f32⟩
  | .hbm, ⟨55, _⟩ => ⟨S256x64x64, .f32⟩
  | .hbm, ⟨56, _⟩ => ⟨S1x256x64x64, .f32⟩
  | .hbm, ⟨57, _⟩ => ⟨S256x64x64, .f32⟩
  | .hbm, ⟨58, _⟩ => ⟨S256x64x64, .f32⟩
  | .hbm, ⟨59, _⟩ => ⟨S256x64x64, .f32⟩
  | .hbm, ⟨60, _⟩ => ⟨S256x64x64, .f32⟩
  | .hbm, ⟨61, _⟩ => ⟨S256x64x64, .f32⟩
  | .hbm, ⟨62, _⟩ => ⟨S256x64x64, .f32⟩
  | .hbm, ⟨63, _⟩ => ⟨S256x64x64, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  transposes_S256x4x64x64_S4x256x64x64_1_0_2_3 : S256x4x64x64.Transposes [1, 0, 2, 3] S4x256x64x64
  shapeCasts_S4x64x64x64x64_S4x4096x4096 : S4x64x64x64x64.ShapeCasts S4x4096x4096
  shapeCasts_S256x64x64_S256x4096 : S256x64x64.ShapeCasts S256x4096
  transposes_S256x4x4096_S4x256x4096_1_0_2 : S256x4x4096.Transposes [1, 0, 2] S4x256x4096
  shapeCasts_S4x256x4096_S4x256x64x64 : S4x256x4096.ShapeCasts S4x256x64x64
  bcast_S4x64x64_S4x1x64x64_0_2_3 : S4x64x64.BroadcastsInDim S4x1x64x64 (![0, 2, 3] : Fin 3 → Fin S4x1x64x64.rank)
  bcast_S4x1x64x64_S4x256x64x64_0_1_2_3 : S4x1x64x64.BroadcastsInDim S4x256x64x64 (![0, 1, 2, 3] : Fin 4 → Fin S4x256x64x64.rank)
  slices_S4x256x64x64_S1x256x64x64_0_0_0_0 : S4x256x64x64.Slices ![0, 0, 0, 0] S1x256x64x64
  shapeCasts_S1x256x64x64_S256x64x64 : S1x256x64x64.ShapeCasts S256x64x64
  bcast_S_S256x64x64 : S_.BroadcastsInDim S256x64x64 (![] : Fin 0 → Fin S256x64x64.rank)
  slices_S4x256x64x64_S1x256x64x64_1_0_0_0 : S4x256x64x64.Slices ![1, 0, 0, 0] S1x256x64x64
  slices_S4x256x64x64_S1x256x64x64_2_0_0_0 : S4x256x64x64.Slices ![2, 0, 0, 0] S1x256x64x64
  slices_S4x256x64x64_S1x256x64x64_3_0_0_0 : S4x256x64x64.Slices ![3, 0, 0, 0] S1x256x64x64
  dot_S256x512_S4x64x64x512_S256x4x64x64_1_3_0_012_n_n_wf : DotDims.WF S256x512 S4x64x64x512 S256x4x64x64 [1] [3] [0] [0, 1, 2] [] []
  dot_S256x4096_S4x4096x4096_S256x4x4096_1_2_0_01_n_n_wf : DotDims.WF S256x4096 S4x4096x4096 S256x4x4096 [1] [2] [0] [0, 1] [] []

variable [Facts₀]

def dot_S256x512_S4x64x64x512_S256x4x64x64_1_3_0_012_n_n : DotDims S256x512 S4x64x64x512 S256x4x64x64 where
  lhsContracting := [1]
  rhsContracting := [3]
  lhsNonContracting := [0]
  rhsNonContracting := [0, 1, 2]
  lhsBatch := []
  rhsBatch := []
  wf := dot_S256x512_S4x64x64x512_S256x4x64x64_1_3_0_012_n_n_wf
def dot_S256x4096_S4x4096x4096_S256x4x4096_1_2_0_01_n_n : DotDims S256x4096 S4x4096x4096 S256x4x4096 where
  lhsContracting := [1]
  rhsContracting := [2]
  lhsNonContracting := [0]
  rhsNonContracting := [0, 1]
  lhsBatch := []
  rhsBatch := []
  wf := dot_S256x4096_S4x4096x4096_S256x4x4096_1_2_0_01_n_n_wf

class Facts : Prop extends Facts₀ where

variable [Facts]
-- ==== Proof.GateSpec.lean ====
/-
  The mathematics of the two kernels, stated once over the extended reals.

  With p = 64·a + b the flattened position of the matrix state, the first kernel writes, for each gate g,
  batch row n and position p,
      pre[g, n, p] = Σ_u hu[n, u]·ww[g, p, u] − Σ_i x[n, i]·wd[g, p, i] + Σ_q hs[n, q]·wu[g, p, q] + bias[g, 0, p],
  and the second kernel turns the four gates into the new cell and output,
      c[n, p]  = σ(pre[0, n, p])·hc[n, p] + σ(pre[1, n, p])·tanh(pre[3, n, p]),
      os[n, p] = σ(pre[2, n, p])·tanh(c[n, p]),
  σ the logistic function. The whole program is these two maps between reshapes of the arguments.
-/
import proofs.«118922_j54468775248255_1_alg».proof.Proof.Gen.KernelIdeal
import Idealize.ShloMosaic.PureOps.Ideal
import Idealize.ShloMosaic.Lib.ValueIdx

noncomputable section

namespace Cert.GateSpec

open Idealize.ShloMosaic Idealize.ShloMosaic.ValueIdx Cert.KernelIdeal

/-- One entry of the gates' pre-activation: three inner products over the contracted axes, combined as
    (first − second + third) + bias. -/
def preAt (ww wd : FVec Ideal S4x4096x512 .f32) (wu : FVec Ideal S4x4096x4096 .f32) (hu x : FVec Ideal S256x512 .f32)
    (hs : FVec Ideal S256x4096 .f32) (bias : FVec Ideal S4x1x4096 .f32) (g : Fin 4) (n : Fin 256) (p : Fin 4096) : EReal :=
  (((∑ k : Fin 512, hu (ix2 n k) * ww (ix3 g p k)) - (∑ k : Fin 512, x (ix2 n k) * wd (ix3 g p k)))
    + (∑ k : Fin 4096, hs (ix2 n k) * wu (ix3 g p k))) + bias (ix3 g (0 : Fin 1) p)

/-- The pre-activation array [4, 256, 4096]. -/
def preArr (ww wd : FVec Ideal S4x4096x512 .f32) (wu : FVec Ideal S4x4096x4096 .f32) (hu x : FVec Ideal S256x512 .f32)
    (hs : FVec Ideal S256x4096 .f32) (bias : FVec Ideal S4x1x4096 .f32) : FVec Ideal S4x256x4096 .f32 :=
  fun i => preAt ww wd wu hu x hs bias (i 0) (i 1) (i 2)

theorem preArr_apply (ww wd : FVec Ideal S4x4096x512 .f32) (wu : FVec Ideal S4x4096x4096 .f32) (hu x : FVec Ideal S256x512 .f32)
    (hs : FVec Ideal S256x4096 .f32) (bias : FVec Ideal S4x1x4096 .f32) (g : Fin 4) (n : Fin 256) (p : Fin 4096) :
    preArr ww wd wu hu x hs bias (ix3 g n p) = preAt ww wd wu hu x hs bias g n p := rfl

/-- The new cell from the forget, input and candidate pre-activations and the old cell. -/
def cellAt (f i g hc : EReal) : EReal := Ideal.logistic f * hc + Ideal.logistic i * Ideal.tanh g

/-- The new output from the output gate's pre-activation and the new cell. -/
def outAt (o c : EReal) : EReal := Ideal.logistic o * Ideal.tanh c

/-- The new cell array [256, 4096] from the pre-activation array and the old cell. -/
def cellArr (pre : FVec Ideal S4x256x4096 .f32) (hc : FVec Ideal S256x4096 .f32) : FVec Ideal S256x4096 .f32 :=
  fun j => cellAt (pre (ix3 (0 : Fin 4) (j 0) (j 1))) (pre (ix3 (1 : Fin 4) (j 0) (j 1))) (pre (ix3 (3 : Fin 4) (j 0) (j 1))) (hc j)

/-- The new output array [256, 4096]. -/
def outArr (pre : FVec Ideal S4x256x4096 .f32) (hc : FVec Ideal S256x4096 .f32) : FVec Ideal S256x4096 .f32 :=
  fun j => outAt (pre (ix3 (2 : Fin 4) (j 0) (j 1))) (cellArr pre hc j)

theorem cellArr_apply (pre : FVec Ideal S4x256x4096 .f32) (hc : FVec Ideal S256x4096 .f32) (n : Fin 256) (p : Fin 4096) :
    cellArr pre hc (ix2 n p) = cellAt (pre (ix3 (0 : Fin 4) n p)) (pre (ix3 (1 : Fin 4) n p)) (pre (ix3 (3 : Fin 4) n p)) (hc (ix2 n p)) := rfl

theorem outArr_apply (pre : FVec Ideal S4x256x4096 .f32) (hc : FVec Ideal S256x4096 .f32) (n : Fin 256) (p : Fin 4096) :
    outArr pre hc (ix2 n p) = outAt (pre (ix3 (2 : Fin 4) n p)) (cellArr pre hc (ix2 n p)) := rfl

/-- The pre-activation array as the program feeds the first kernel: the weights and states flattened by row-major
    reshapes, the three biases summed. Arguments in the order of the program's parameters
    (x, hidden_s, hidden_u, Wd, Wu, Ww, Bd, Bu, Bw). -/
def preOf (x0 : FVec Ideal S256x512 .f32) (x1 : FVec Ideal S256x64x64 .f32) (x2 : FVec Ideal S256x512 .f32)
    (x4 : FVec Ideal S4x64x64x512 .f32) (x5 : FVec Ideal S4x64x64x64x64 .f32) (x6 : FVec Ideal S4x64x64x512 .f32)
    (x7 x8 x9 : FVec Ideal S4x64x64 .f32) : FVec Ideal S4x256x4096 .f32 :=
  preArr (shapeCast S4x4096x512 x6 Gen.shapeCasts_S4x64x64x512_S4x4096x512) (shapeCast S4x4096x512 x4 Gen.shapeCasts_S4x64x64x512_S4x4096x512)
    (shapeCast S4x4096x4096 x5 Gen.shapeCasts_S4x64x64x64x64_S4x4096x4096) x2 x0 (shapeCast S256x4096 x1 Gen.shapeCasts_S256x64x64_S256x4096)
    (shapeCast S4x1x4096 (addf (addf x7 x8) x9) Gen.shapeCasts_S4x64x64_S4x1x4096)

/-- The program's second result (the new cell, [256, 64, 64]) as one function of its ten arguments. -/
def cellOf (x0 : FVec Ideal S256x512 .f32) (x1 : FVec Ideal S256x64x64 .f32) (x2 : FVec Ideal S256x512 .f32) (x3 : FVec Ideal S256x64x64 .f32)
    (x4 : FVec Ideal S4x64x64x512 .f32) (x5 : FVec Ideal S4x64x64x64x64 .f32) (x6 : FVec Ideal S4x64x64x512 .f32)
    (x7 x8 x9 : FVec Ideal S4x64x64 .f32) : FVec Ideal S256x64x64 .f32 :=
  shapeCast S256x64x64 (cellArr (preOf x0 x1 x2 x4 x5 x6 x7 x8 x9) (shapeCast S256x4096 x3 Gen.shapeCasts_S256x64x64_S256x4096))
    Gen.shapeCasts_S256x4096_S256x64x64

/-- The program's first result (the new output, [256, 64, 64]) as one function of its ten arguments. -/
def outOf (x0 : FVec Ideal S256x512 .f32) (x1 : FVec Ideal S256x64x64 .f32) (x2 : FVec Ideal S256x512 .f32) (x3 : FVec Ideal S256x64x64 .f32)
    (x4 : FVec Ideal S4x64x64x512 .f32) (x5 : FVec Ideal S4x64x64x64x64 .f32) (x6 : FVec Ideal S4x64x64x512 .f32)
    (x7 x8 x9 : FVec Ideal S4x64x64 .f32) : FVec Ideal S256x64x64 .f32 :=
  shapeCast S256x64x64 (outArr (preOf x0 x1 x2 x4 x5 x6 x7 x8 x9) (shapeCast S256x4096 x3 Gen.shapeCasts_S256x64x64_S256x4096))
    Gen.shapeCasts_S256x4096_S256x64x64

end Cert.GateSpec

end
-- ==== Proof.KReg0Pay.lean ====
/-
  The first kernel's stored value read at one entry: with row r of the batch and column q of the block of 256
  flattened state positions, the payload is
      Σ_k hu[r, k]·ww[0, q, k] − Σ_k x[r, k]·wd[0, q, k] + Σ_k hs[r, k]·wu[0, q, k] + bias[0, 0, q]:
  each matrix product against a transposed weight block is a plain sum over the contracted axis (the changes of float
  format are the identity on the extended reals, the accumulator starts at zero), and the bias row is broadcast down
  the rows.
-/
import proofs.«118922_j54468775248255_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Idealize.ShloMosaic Idealize.ShloMosaic.ValueIdx Cert.KernelIdeal Cert.KernelIdeal.Gen

/-! ## The operand indices of the two contractions

For the [256, 512] × [512, 256] product the left operand is read at (row of the result, contraction position) and the
right at (contraction position, column of the result); likewise for [256, 4096] × [4096, 256]. -/

theorem lhs512_0 (i : S256x256.Idx) (q : Cert.KernelIdeal.dot_S256x512_S512x256_S256x256_1_0_0_1_n_n.contr.Idx) :
    (Cert.KernelIdeal.dot_S256x512_S512x256_S256x256_1_0_0_1_n_n.lhsIdx i q 0).val = (i 0).val := by
  unfold DotDims.lhsIdx
  rw [dif_neg (show ¬(0 : Fin S256x512.rank) ∈ Cert.KernelIdeal.dot_S256x512_S512x256_S256x256_1_0_0_1_n_n.lhsBatch by decide),
    dif_pos (show (0 : Fin S256x512.rank) ∈ Cert.KernelIdeal.dot_S256x512_S512x256_S256x256_1_0_0_1_n_n.lhsNonContracting by decide)]
  rfl

theorem lhs512_1 (i : S256x256.Idx) (q : Cert.KernelIdeal.dot_S256x512_S512x256_S256x256_1_0_0_1_n_n.contr.Idx) :
    (Cert.KernelIdeal.dot_S256x512_S512x256_S256x256_1_0_0_1_n_n.lhsIdx i q 1).val = (q ⟨0, by decide⟩).val :=
  Cert.KernelIdeal.dot_S256x512_S512x256_S256x256_1_0_0_1_n_n.lhsIdx_val_of_single rfl i q

theorem rhs512_0 (i : S256x256.Idx) (q : Cert.KernelIdeal.dot_S256x512_S512x256_S256x256_1_0_0_1_n_n.contr.Idx) :
    (Cert.KernelIdeal.dot_S256x512_S512x256_S256x256_1_0_0_1_n_n.rhsIdx i q 0).val = (q ⟨0, by decide⟩).val :=
  Cert.KernelIdeal.dot_S256x512_S512x256_S256x256_1_0_0_1_n_n.rhsIdx_val_of_single rfl i q

theorem rhs512_1 (i : S256x256.Idx) (q : Cert.KernelIdeal.dot_S256x512_S512x256_S256x256_1_0_0_1_n_n.contr.Idx) :
    (Cert.KernelIdeal.dot_S256x512_S512x256_S256x256_1_0_0_1_n_n.rhsIdx i q 1).val = (i 1).val := by
  unfold DotDims.rhsIdx
  rw [dif_neg (show ¬(1 : Fin S512x256.rank) ∈ Cert.KernelIdeal.dot_S256x512_S512x256_S256x256_1_0_0_1_n_n.rhsBatch by decide),
    dif_pos (show (1 : Fin S512x256.rank) ∈ Cert.KernelIdeal.dot_S256x512_S512x256_S256x256_1_0_0_1_n_n.rhsNonContracting by decide)]
  rfl

/-- A product of x against the transpose of the weight block with its unit axis dropped, at (r, q). -/
theorem mm512_apply (x : FVec Ideal S256x512 .f32) (w : FVec Ideal S1x256x512 .f32) (r q : Fin 256) :
    matmul Cert.KernelIdeal.dot_S256x512_S512x256_S256x256_1_0_0_1_n_n none
        (truncf .bf16 x bitsLt_bf16_f32)
        (transpose S512x256 [1, 0] (truncf .bf16 (shapeCast S256x512 w shapeCasts_S1x256x512_S256x512) bitsLt_bf16_f32)
          transposes_S256x512_p1_0_S512x256)
        (constant (F := Ideal) S256x256 .f32 0x00000000#32) (ix2 r q)
      = ∑ k : Fin 512, x (ix2 r k) * w (ix3 (0 : Fin 1) q k) := by
  simp only [matmul]
  rw [Ideal.matmul_constant_zero_apply,
    ← Equiv.sum_comp (ValueIdx.contrEquiv1 Cert.KernelIdeal.dot_S256x512_S512x256_S256x256_1_0_0_1_n_n 512 rfl rfl).symm]
  refine Finset.sum_congr rfl fun k _ => ?_
  have hk := ValueIdx.contrEquiv1_symm_val Cert.KernelIdeal.dot_S256x512_S512x256_S256x256_1_0_0_1_n_n 512 rfl rfl k
  have el : Cert.KernelIdeal.dot_S256x512_S512x256_S256x256_1_0_0_1_n_n.lhsIdx (ix2 r q)
      ((ValueIdx.contrEquiv1 Cert.KernelIdeal.dot_S256x512_S512x256_S256x256_1_0_0_1_n_n 512 rfl rfl).symm k) = ix2 r k :=
    funext fun a => Fin.ext (by
      match a with
      | ⟨0, _⟩ => exact lhs512_0 _ _
      | ⟨1, _⟩ => exact (lhs512_1 _ _).trans hk)
  have er : Cert.KernelIdeal.dot_S256x512_S512x256_S256x256_1_0_0_1_n_n.rhsIdx (ix2 r q)
      ((ValueIdx.contrEquiv1 Cert.KernelIdeal.dot_S256x512_S512x256_S256x256_1_0_0_1_n_n 512 rfl rfl).symm k) = ix2 k q :=
    funext fun a => Fin.ext (by
      match a with
      | ⟨0, _⟩ => exact (rhs512_0 _ _).trans hk
      | ⟨1, _⟩ => exact rhs512_1 _ _)
  rw [el, er]
  rw [transpose_apply [1, 0] _ transposes_S256x512_p1_0_S512x256 (ix2 k q) (ix2 q k)
    (fun b => match b with | ⟨0, _⟩ => rfl | ⟨1, _⟩ => rfl)]
  show x (ix2 r k) * shapeCast S256x512 w shapeCasts_S1x256x512_S256x512 (ix2 q k) = _
  rw [shapeCast_apply w shapeCasts_S1x256x512_S256x512 (ix2 q k) (ix3 (0 : Fin 1) q k)
    (by rw [Shape.rowMajor_val_three, Shape.rowMajor_val_two]
        show ((0 : Nat) * 256 + q.val) * 512 + k.val = q.val * 512 + k.val
        omega)]

theorem lhs4096_0 (i : S256x256.Idx) (q : Cert.KernelIdeal.dot_S256x4096_S4096x256_S256x256_1_0_0_1_n_n.contr.Idx) :
    (Cert.KernelIdeal.dot_S256x4096_S4096x256_S256x256_1_0_0_1_n_n.lhsIdx i q 0).val = (i 0).val := by
  unfold DotDims.lhsIdx
  rw [dif_neg (show ¬(0 : Fin S256x4096.rank) ∈ Cert.KernelIdeal.dot_S256x4096_S4096x256_S256x256_1_0_0_1_n_n.lhsBatch by decide),
    dif_pos (show (0 : Fin S256x4096.rank) ∈ Cert.KernelIdeal.dot_S256x4096_S4096x256_S256x256_1_0_0_1_n_n.lhsNonContracting by decide)]
  rfl

theorem lhs4096_1 (i : S256x256.Idx) (q : Cert.KernelIdeal.dot_S256x4096_S4096x256_S256x256_1_0_0_1_n_n.contr.Idx) :
    (Cert.KernelIdeal.dot_S256x4096_S4096x256_S256x256_1_0_0_1_n_n.lhsIdx i q 1).val = (q ⟨0, by decide⟩).val :=
  Cert.KernelIdeal.dot_S256x4096_S4096x256_S256x256_1_0_0_1_n_n.lhsIdx_val_of_single rfl i q

theorem rhs4096_0 (i : S256x256.Idx) (q : Cert.KernelIdeal.dot_S256x4096_S4096x256_S256x256_1_0_0_1_n_n.contr.Idx) :
    (Cert.KernelIdeal.dot_S256x4096_S4096x256_S256x256_1_0_0_1_n_n.rhsIdx i q 0).val = (q ⟨0, by decide⟩).val :=
  Cert.KernelIdeal.dot_S256x4096_S4096x256_S256x256_1_0_0_1_n_n.rhsIdx_val_of_single rfl i q

theorem rhs4096_1 (i : S256x256.Idx) (q : Cert.KernelIdeal.dot_S256x4096_S4096x256_S256x256_1_0_0_1_n_n.contr.Idx) :
    (Cert.KernelIdeal.dot_S256x4096_S4096x256_S256x256_1_0_0_1_n_n.rhsIdx i q 1).val = (i 1).val := by
  unfold DotDims.rhsIdx
  rw [dif_neg (show ¬(1 : Fin S4096x256.rank) ∈ Cert.KernelIdeal.dot_S256x4096_S4096x256_S256x256_1_0_0_1_n_n.rhsBatch by decide),
    dif_pos (show (1 : Fin S4096x256.rank) ∈ Cert.KernelIdeal.dot_S256x4096_S4096x256_S256x256_1_0_0_1_n_n.rhsNonContracting by decide)]
  rfl

/-- The same over the contracted axis of length 4096; the left operand's cast to its own shape is the identity. -/
theorem mm4096_apply (x : FVec Ideal S256x4096 .f32) (w : FVec Ideal S1x256x4096 .f32) (r q : Fin 256) :
    matmul Cert.KernelIdeal.dot_S256x4096_S4096x256_S256x256_1_0_0_1_n_n none
        (truncf .bf16 (shapeCast S256x4096 x shapeCasts_S256x4096_S256x4096) bitsLt_bf16_f32)
        (transpose S4096x256 [1, 0] (truncf .bf16 (shapeCast S256x4096 w shapeCasts_S1x256x4096_S256x4096) bitsLt_bf16_f32)
          transposes_S256x4096_p1_0_S4096x256)
        (constant (F := Ideal) S256x256 .f32 0x00000000#32) (ix2 r q)
      = ∑ k : Fin 4096, x (ix2 r k) * w (ix3 (0 : Fin 1) q k) := by
  rw [shapeCast_self]
  simp only [matmul]
  rw [Ideal.matmul_constant_zero_apply,
    ← Equiv.sum_comp (ValueIdx.contrEquiv1 Cert.KernelIdeal.dot_S256x4096_S4096x256_S256x256_1_0_0_1_n_n 4096 rfl rfl).symm]
  refine Finset.sum_congr rfl fun k _ => ?_
  have hk := ValueIdx.contrEquiv1_symm_val Cert.KernelIdeal.dot_S256x4096_S4096x256_S256x256_1_0_0_1_n_n 4096 rfl rfl k
  have el : Cert.KernelIdeal.dot_S256x4096_S4096x256_S256x256_1_0_0_1_n_n.lhsIdx (ix2 r q)
      ((ValueIdx.contrEquiv1 Cert.KernelIdeal.dot_S256x4096_S4096x256_S256x256_1_0_0_1_n_n 4096 rfl rfl).symm k) = ix2 r k :=
    funext fun a => Fin.ext (by
      match a with
      | ⟨0, _⟩ => exact lhs4096_0 _ _
      | ⟨1, _⟩ => exact (lhs4096_1 _ _).trans hk)
  have er : Cert.KernelIdeal.dot_S256x4096_S4096x256_S256x256_1_0_0_1_n_n.rhsIdx (ix2 r q)
      ((ValueIdx.contrEquiv1 Cert.KernelIdeal.dot_S256x4096_S4096x256_S256x256_1_0_0_1_n_n 4096 rfl rfl).symm k) = ix2 k q :=
    funext fun a => Fin.ext (by
      match a with
      | ⟨0, _⟩ => exact (rhs4096_0 _ _).trans hk
      | ⟨1, _⟩ => exact rhs4096_1 _ _)
  rw [el, er]
  rw [transpose_apply [1, 0] _ transposes_S256x4096_p1_0_S4096x256 (ix2 k q) (ix2 q k)
    (fun b => match b with | ⟨0, _⟩ => rfl | ⟨1, _⟩ => rfl)]
  show x (ix2 r k) * shapeCast S256x4096 w shapeCasts_S1x256x4096_S256x4096 (ix2 q k) = _
  rw [shapeCast_apply w shapeCasts_S1x256x4096_S256x4096 (ix2 q k) (ix3 (0 : Fin 1) q k)
    (by rw [Shape.rowMajor_val_three, Shape.rowMajor_val_two]
        show ((0 : Nat) * 256 + q.val) * 4096 + k.val = q.val * 4096 + k.val
        omega)]

/-- The payload of the first kernel's one store, at row `r` and column `q` of its [1, 256, 256] block. -/
theorem pay_apply (x0 x1 : Vec Ideal S1x256x512 .f32) (x2 : Vec Ideal S1x256x4096 .f32) (x3 x4 : Vec Ideal S256x512 .f32)
    (x5 : Vec Ideal S256x4096 .f32) (x6 : Vec Ideal S1x1x256 .f32) (r q : Fin 256) :
    k0_pay1 (F := Ideal) x0 x1 x2 x3 x4 x5 x6 (ix3 (0 : Fin 1) r q)
      = (((∑ k : Fin 512, x3 (ix2 r k) * x0 (ix3 (0 : Fin 1) q k)) - (∑ k : Fin 512, x4 (ix2 r k) * x1 (ix3 (0 : Fin 1) q k)))
          + (∑ k : Fin 4096, x5 (ix2 r k) * x2 (ix3 (0 : Fin 1) q k))) + x6 (ix3 (0 : Fin 1) (0 : Fin 1) q) := by
  unfold k0_pay1
  refine (shapeCast_apply _ shapeCasts_S256x256_S1x256x256 (ix3 (0 : Fin 1) r q) (ix2 r q)
    (by rw [Shape.rowMajor_val_three, Shape.rowMajor_val_two]
        show r.val * 256 + q.val = ((0 : Nat) * 256 + r.val) * 256 + q.val
        omega)).trans ?_
  have hb : broadcastTo S256x256 (shapeCast S1x256 x6 shapeCasts_S1x1x256_S1x256) broadcasts_S1x256_S256x256 (ix2 r q)
      = x6 (ix3 (0 : Fin 1) (0 : Fin 1) q) := by
    rw [broadcastTo_apply _ broadcasts_S1x256_S256x256 (ix2 r q) (ix2 (0 : Fin 1) q)
      (fun a => match a with | ⟨0, _⟩ => rfl | ⟨1, _⟩ => rfl)]
    exact shapeCast_apply x6 shapeCasts_S1x1x256_S1x256 (ix2 (0 : Fin 1) q) (ix3 (0 : Fin 1) (0 : Fin 1) q)
      (by rw [Shape.rowMajor_val_three, Shape.rowMajor_val_two]
          show ((0 : Nat) * 1 + 0) * 256 + q.val = 0 * 256 + q.val
          omega)
  exact congrArg₂ (· + ·)
    (congrArg₂ (· + ·) (congrArg₂ (· - ·) (mm512_apply x3 x0 r q) (mm512_apply x4 x1 r q)) (mm4096_apply x5 x2 r q)) hb

end Cert.KernelIdeal.Reg0

end
-- ==== Proof.KReg0.lean ====
/-
  The first kernel's output array after its run. Grid point (g, j) reads rows 256·j … 256·j + 255 of gate g's three
  flattened weight matrices and the bias, the whole of the three state matrices, and writes the [256, 256] block of
  columns 256·j … of gate g's pre-activation; the 4 × 16 blocks tile the [4, 256, 4096] array, so every entry is the
  pre-activation `GateSpec.preArr` of the arrays as the region finds them.
-/
import proofs.«118922_j54468775248255_1_alg».proof.Proof.Gen.KernelIdeal.Frame
import proofs.«118922_j54468775248255_1_alg».proof.Proof.GateSpec
import proofs.«118922_j54468775248255_1_alg».proof.Proof.KReg0Pay

set_option maxRecDepth 16384

noncomputable section

namespace Cert.KernelIdeal.Reg0

open Idealize.ShloMosaic Idealize.ShloMosaic.TcCoe Idealize.ShloMosaic.ValueIdx Idealize.SL.Sem Cert.KernelIdeal Cert.KernelIdeal.Gen

/-- The zero offsets of a rank-3 whole-buffer access. -/
theorem zeroOffs3 : (![0, 0, 0] : Fin 3 → Nat) = fun _ => 0 := funext fun a => by fin_cases a <;> rfl
/-- The zero offsets of a rank-2 whole-buffer access. -/
theorem zeroOffs2 : (![0, 0] : Fin 2 → Nat) = fun _ => 0 := funext fun a => by fin_cases a <;> rfl

/-- The block indices, decided over the 64 grid points: the three weight windows sit at (gate, row block, 0) where the
    output sits at (gate, 0, column block); the three state windows at (0, 0); the bias at the output's own index; the
    output's gate index is at most 3, its column block at most 15. -/
theorem idx_facts : ∀ t : Fin cfg0.N,
    win0_0.index t (0 : Fin 3) = win0_7.index t (0 : Fin 3) ∧ win0_0.index t (1 : Fin 3) = win0_7.index t (2 : Fin 3) ∧ win0_0.index t (2 : Fin 3) = 0
    ∧ win0_1.index t (0 : Fin 3) = win0_7.index t (0 : Fin 3) ∧ win0_1.index t (1 : Fin 3) = win0_7.index t (2 : Fin 3) ∧ win0_1.index t (2 : Fin 3) = 0
    ∧ win0_2.index t (0 : Fin 3) = win0_7.index t (0 : Fin 3) ∧ win0_2.index t (1 : Fin 3) = win0_7.index t (2 : Fin 3) ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = win0_7.index t (0 : Fin 3) ∧ win0_6.index t (1 : Fin 3) = 0 ∧ win0_6.index t (2 : Fin 3) = win0_7.index t (2 : Fin 3)
    ∧ win0_7.index t (0 : Fin 3) ≤ 3 ∧ win0_7.index t (1 : Fin 3) = 0 ∧ win0_7.index t (2 : Fin 3) ≤ 15 :=
  (by decide +kernel : ∀ t : Fin grid0.N, _)

/-- Every (gate, column block) is some point's output block index. -/
theorem idx_onto : ∀ (g : Fin 4) (j : Fin 16), ∃ t : Fin cfg0.N, win0_7.index t = ![g.val, 0, j.val] :=
  (by decide +kernel : ∀ (g : Fin 4) (j : Fin 16), ∃ t : Fin grid0.N, win0_7.index t = ![g.val, 0, j.val])

section Blocks

variable (V : (c : Dev nD) → (b : Ref sig .tc) → Buf (Elt Ideal) ((c : Thread nD τ).loc b)) (c : Dev nD) (t : Fin cfg0.N)

/-! ## Each input block read where the output's block says

With (g, 0, b) the output's block index at point t, row q of a weight block is row p = 256·b + q of gate g's matrix;
the state blocks are the whole arrays; column q of the bias block is column p of gate g's bias. -/

/-- The recurrent-input weight's block: entry (0, q, k) is the array's (g, p, k). -/
theorem blk0_apply (q : Fin 256) (k : Fin 512) (g : Fin 4) (p : Fin 4096)
    (hg : g.val = win0_7.index t (0 : Fin 3)) (hp : p.val = win0_7.index t (2 : Fin 3) * 256 + q.val) :
    (iblk0 (F := Ideal) V c 0 t : Vec Ideal S1x256x512 .f32) (ix3 (0 : Fin 1) q k)
      = (V c main_v1 : S4x4096x512.Idx → Elt Ideal .f32) (ix3 g p k) := by
  obtain ⟨e0, e1, e2, -⟩ := idx_facts t
  unfold iblk0
  rw [View.read_apply]
  show V c main_v1 _ = V c main_v1 _
  congr 1
  funext a; apply Fin.ext
  match a with
  | ⟨0, _⟩ => show win0_0.index t (0 : Fin 3) * 1 + 1 * 0 = g.val; omega
  | ⟨1, _⟩ => show win0_0.index t (1 : Fin 3) * 256 + 1 * q.val = p.val; omega
  | ⟨2, _⟩ => show win0_0.index t (2 : Fin 3) * 512 + 1 * k.val = k.val; omega

/-- The input weight's block: entry (0, q, k) is the array's (g, p, k). -/
theorem blk1_apply (q : Fin 256) (k : Fin 512) (g : Fin 4) (p : Fin 4096)
    (hg : g.val = win0_7.index t (0 : Fin 3)) (hp : p.val = win0_7.index t (2 : Fin 3) * 256 + q.val) :
    (iblk0 (F := Ideal) V c 1 t : Vec Ideal S1x256x512 .f32) (ix3 (0 : Fin 1) q k)
      = (V c main_v0 : S4x4096x512.Idx → Elt Ideal .f32) (ix3 g p k) := by
  obtain ⟨-, -, -, e0, e1, e2, -⟩ := idx_facts t
  unfold iblk0
  rw [View.read_apply]
  show V c main_v0 _ = V c main_v0 _
  congr 1
  funext a; apply Fin.ext
  match a with
  | ⟨0, _⟩ => show win0_1.index t (0 : Fin 3) * 1 + 1 * 0 = g.val; omega
  | ⟨1, _⟩ => show win0_1.index t (1 : Fin 3) * 256 + 1 * q.val = p.val; omega
  | ⟨2, _⟩ => show win0_1.index t (2 : Fin 3) * 512 + 1 * k.val = k.val; omega

/-- The matrix-state weight's block: entry (0, q, k) is the array's (g, p, k). -/
theorem blk2_apply (q : Fin 256) (k : Fin 4096) (g : Fin 4) (p : Fin 4096)
    (hg : g.val = win0_7.index t (0 : Fin 3)) (hp : p.val = win0_7.index t (2 : Fin 3) * 256 + q.val) :
    (iblk0 (F := Ideal) V c 2 t : Vec Ideal S1x256x4096 .f32) (ix3 (0 : Fin 1) q k)
      = (V c main_v2 : S4x4096x4096.Idx → Elt Ideal .f32) (ix3 g p k) := by
  obtain ⟨-, -, -, -, -, -, e0, e1, e2, -⟩ := idx_facts t
  unfold iblk0
  rw [View.read_apply]
  show V c main_v2 _ = V c main_v2 _
  congr 1
  funext a; apply Fin.ext
  match a with
  | ⟨0, _⟩ => show win0_2.index t (0 : Fin 3) * 1 + 1 * 0 = g.val; omega
  | ⟨1, _⟩ => show win0_2.index t (1 : Fin 3) * 256 + 1 * q.val = p.val; omega
  | ⟨2, _⟩ => show win0_2.index t (2 : Fin 3) * 4096 + 1 * k.val = k.val; omega

/-- The vector hidden state's block is the whole array. -/
theorem blk3_apply (n : Fin 256) (k : Fin 512) :
    (iblk0 (F := Ideal) V c 3 t : Vec Ideal S256x512 .f32) (ix2 n k)
      = (V c main_arg2 : S256x512.Idx → Elt Ideal .f32) (ix2 n k) := by
  obtain ⟨-, -, -, -, -, -, -, -, -, e0, e1, -⟩ := idx_facts t
  unfold iblk0
  rw [View.read_apply]
  show V c main_arg2 _ = V c main_arg2 _
  congr 1
  funext a; apply Fin.ext
  match a with
  | ⟨0, _⟩ => show win0_3.index t (0 : Fin 2) * 256 + 1 * n.val = n.val; omega
  | ⟨1, _⟩ => show win0_3.index t (1 : Fin 2) * 512 + 1 * k.val = k.val; omega

/-- The input's block is the whole array. -/
theorem blk4_apply (n : Fin 256) (k : Fin 512) :
    (iblk0 (F := Ideal) V c 4 t : Vec Ideal S256x512 .f32) (ix2 n k)
      = (V c main_arg0 : S256x512.Idx → Elt Ideal .f32) (ix2 n k) := by
  obtain ⟨-, -, -, -, -, -, -, -, -, -, -, e0, e1, -⟩ := idx_facts t
  unfold iblk0
  rw [View.read_apply]
  show V c main_arg0 _ = V c main_arg0 _
  congr 1
  funext a; apply Fin.ext
  match a with
  | ⟨0, _⟩ => show win0_4.index t (0 : Fin 2) * 256 + 1 * n.val = n.val; omega
  | ⟨1, _⟩ => show win0_4.index t (1 : Fin 2) * 512 + 1 * k.val = k.val; omega

/-- The flattened matrix state's block is the whole array. -/
theorem blk5_apply (n : Fin 256) (k : Fin 4096) :
    (iblk0 (F := Ideal) V c 5 t : Vec Ideal S256x4096 .f32) (ix2 n k)
      = (V c main_v3 : S256x4096.Idx → Elt Ideal .f32) (ix2 n k) := by
  obtain ⟨-, -, -, -, -, -, -, -, -, -, -, -, -, e0, e1, -⟩ := idx_facts t
  unfold iblk0
  rw [View.read_apply]
  show V c main_v3 _ = V c main_v3 _
  congr 1
  funext a; apply Fin.ext
  match a with
  | ⟨0, _⟩ => show win0_5.index t (0 : Fin 2) * 256 + 1 * n.val = n.val; omega
  | ⟨1, _⟩ => show win0_5.index t (1 : Fin 2) * 4096 + 1 * k.val = k.val; omega

/-- The bias block: entry (0, 0, q) is the array's (g, 0, p). -/
theorem blk6_apply (q : Fin 256) (g : Fin 4) (p : Fin 4096)
    (hg : g.val = win0_7.index t (0 : Fin 3)) (hp : p.val = win0_7.index t (2 : Fin 3) * 256 + q.val) :
    (iblk0 (F := Ideal) V c 6 t : Vec Ideal S1x1x256 .f32) (ix3 (0 : Fin 1) (0 : Fin 1) q)
      = (V c main_v7 : S4x1x4096.Idx → Elt Ideal .f32) (ix3 g (0 : Fin 1) p) := by
  obtain ⟨-, -, -, -, -, -, -, -, -, -, -, -, -, -, -, e0, e1, e2, -⟩ := idx_facts t
  unfold iblk0
  rw [View.read_apply]
  show V c main_v7 _ = V c main_v7 _
  congr 1
  funext a; apply Fin.ext
  match a with
  | ⟨0, _⟩ => show win0_6.index t (0 : Fin 3) * 1 + 1 * 0 = g.val; omega
  | ⟨1, _⟩ => show win0_6.index t (1 : Fin 3) * 1 + 1 * 0 = 0; omega
  | ⟨2, _⟩ => show win0_6.index t (2 : Fin 3) * 256 + 1 * q.val = p.val; omega

/-- The stored value at row r, column q of point t's block is the pre-activation at gate g, row r, position p. -/
theorem point_eq (r q : Fin 256) (g : Fin 4) (p : Fin 4096)
    (hg : g.val = win0_7.index t (0 : Fin 3)) (hp : p.val = win0_7.index t (2 : Fin 3) * 256 + q.val) :
    k0_pay1 (F := Ideal) (iblk0 V c 0 t) (iblk0 V c 1 t) (iblk0 V c 2 t) (iblk0 V c 3 t) (iblk0 V c 4 t) (iblk0 V c 5 t)
        (iblk0 V c 6 t) (ix3 (0 : Fin 1) r q)
      = GateSpec.preAt (V c main_v1) (V c main_v0) (V c main_v2) (V c main_arg2) (V c main_arg0) (V c main_v3) (V c main_v7) g r p := by
  refine (pay_apply _ _ _ _ _ _ _ r q).trans ?_
  unfold GateSpec.preAt
  refine congrArg₂ (· + ·) (congrArg₂ (· + ·) (congrArg₂ (· - ·) (Finset.sum_congr rfl fun k _ => ?_)
    (Finset.sum_congr rfl fun k _ => ?_)) (Finset.sum_congr rfl fun k _ => ?_)) ?_
  · rw [blk3_apply V c t r k, blk0_apply V c t q k g p hg hp]
  · rw [blk4_apply V c t r k, blk1_apply V c t q k g p hg hp]
  · rw [blk5_apply V c t r k, blk2_apply V c t q k g p hg hp]
  · exact blk6_apply V c t q g p hg hp

/-- WHAT POINT t WRITES BACK is its block of the pre-activation array of the arrays as the region finds them. -/
theorem flushed_eq :
    (dat0 (F := Ideal) V c).flushed 7 t = ((cfg0.win 7).blk t).view.read (Elt Ideal)
      (GateSpec.preArr (V c main_v1) (V c main_v0) (V c main_v2) (V c main_arg2) (V c main_arg0) (V c main_v3) (V c main_v7)) := by
  show (cfg0.win 7).cut (grid0.coords t) ((dat0 (F := Ideal) V c).after 7 t) = _
  rw [after0_7]
  unfold out0_7
  rw [View.canon_unit_zero zeroOffs3]
  simp only [View.ld_unit_zero (S := S1x256x512) zeroOffs3, View.ld_unit_zero (S := S1x256x4096) zeroOffs3,
    View.ld_unit_zero (S := S256x512) zeroOffs2, View.ld_unit_zero (S := S256x4096) zeroOffs2, View.ld_unit_zero (S := S1x1x256) zeroOffs3]
  obtain ⟨-, -, -, -, -, -, -, -, -, -, -, -, -, -, -, -, -, -, b0, b1, b2⟩ := idx_facts t
  funext j
  obtain ⟨z, r, q, rfl⟩ : ∃ (z : Fin 1) (r q : Fin 256), j = ix3 z r q := ⟨j 0, j 1, j 2, eq_ix3 j⟩
  obtain rfl : z = 0 := Fin.eq_zero z
  refine (point_eq V c t r q ⟨win0_7.index t (0 : Fin 3), by omega⟩ ⟨win0_7.index t (2 : Fin 3) * 256 + q.val, by have := q.isLt; omega⟩ rfl rfl).trans ?_
  rw [View.read_apply]
  show GateSpec.preAt _ _ _ _ _ _ _ _ _ _ = GateSpec.preAt _ _ _ _ _ _ _ _ _ _
  congr 1 <;> apply Fin.ext
  · show win0_7.index t (0 : Fin 3) = win0_7.index t (0 : Fin 3) * 1 + 1 * 0; omega
  · show r.val = win0_7.index t (1 : Fin 3) * 256 + 1 * r.val; omega
  · show win0_7.index t (2 : Fin 3) * 256 + q.val = win0_7.index t (2 : Fin 3) * 256 + 1 * q.val; omega

end Blocks

/-- An index of the output array is in point t's block iff each coordinate is in the block's range on its axis. -/
theorem mem_blk (t : Fin cfg0.N) (i : S4x256x4096.Idx) :
    i ∈ ((cfg0.win 7).blk t).view.set ↔ ∀ a : Fin 3, win0_7.index t a * S1x256x256.size a ≤ (i a).val ∧ (i a).val < win0_7.index t a * S1x256x256.size a + S1x256x256.size a := by
  show i ∈ ((View.whole main_v8).slice (win0_7.rect t)).set ↔ _
  rw [View.set_slice_whole, Rect.mem_set_unit]
  exact Iff.rfl

/-- The 4 × 16 blocks tile the array: index (g, n, p) lies in the block of the point with gate g and column block p / 256. -/
theorem cover (i : S4x256x4096.Idx) :
    ∃ t : Fin cfg0.N, (cfg0.win 7).flush t = true ∧ i ∈ ((cfg0.win 7).blk t).view.set := by
  have hi0 : (i 0).val < 4 := (i 0).isLt
  have hi1 : (i 1).val < 256 := (i 1).isLt
  have hi2 : (i 2).val < 4096 := (i 2).isLt
  obtain ⟨t, ht⟩ := idx_onto ⟨(i 0).val, hi0⟩ ⟨(i 2).val / 256, by omega⟩
  have q0 : win0_7.index t (0 : Fin 3) = (i 0).val := congrFun ht 0
  have q1 : win0_7.index t (1 : Fin 3) = 0 := congrFun ht 1
  have q2 : win0_7.index t (2 : Fin 3) = (i 2).val / 256 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 256 ≤ (i 2).val ∧ (i 2).val < win0_7.index t (2 : Fin 3) * 256 + 256; omega

/-- The first kernel's output array after all 64 grid points, for any contents `V` of the buffers at the region's entry. -/
theorem final0 (V : (c : Dev nD) → (b : Ref sig .tc) → Buf (Elt Ideal) ((c : Thread nD τ).loc b)) (c : Dev nD) :
    (dat0 (F := Ideal) V c).arrAt 7 cfg0.N
      = GateSpec.preArr (V c main_v1) (V c main_v0) (V c main_v2) (V c main_arg2) (V c main_arg0) (V c main_v3) (V c main_v7) :=
  (dat0 (F := Ideal) V c).arrAt_eq_of_cover 7 _ (fun t _ => flushed_eq V c t) cover

end Cert.KernelIdeal.Reg0

end
-- ==== Proof.KReg1.lean ====
/-
  The second kernel's two output arrays after its run. Grid point j reads columns 1024·j … of all four gates'
  pre-activations and of the old cell and writes the same columns of the new cell and of the new output, entry by entry:
      c = σ(pre₀)·hc + σ(pre₁)·tanh(pre₃),   os = σ(pre₂)·tanh(c).
  The four column blocks tile [256, 4096].
-/
import proofs.«118922_j54468775248255_1_alg».proof.Proof.Gen.KernelIdeal.Frame
import proofs.«118922_j54468775248255_1_alg».proof.Proof.GateSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Idealize.ShloMosaic Idealize.ShloMosaic.TcCoe Idealize.ShloMosaic.ValueIdx Idealize.SL.Sem Cert.KernelIdeal Cert.KernelIdeal.Gen

/-- A shape cast dropping the leading unit axis, read at row r, column q. -/
theorem drop_apply {α : Type} (v : S1x256x1024.Idx → α) (r : Fin 256) (q : Fin 1024) :
    shapeCast S256x1024 v shapeCasts_S1x256x1024_S256x1024 (ix2 r q) = v (ix3 (0 : Fin 1) r q) := by
  refine (shapeCast_dropUnit_apply ![256, 1024] v shapeCasts_S1x256x1024_S256x1024 (ix2 r q)).trans ?_
  congr 1
  funext a; match a with | ⟨0, _⟩ => rfl | ⟨1, _⟩ => rfl | ⟨2, _⟩ => rfl

/-- The new cell's payload at row `r`, column `q` of the block, from the three gate slabs it reads and the old cell's block. -/
theorem pay1_apply (v0 v3 v9 : Vec Ideal S1x256x1024 .f32) (v12 : Vec Ideal S256x1024 .f32) (r : Fin 256) (q : Fin 1024) :
    k1_pay1 (F := Ideal) v0 v3 v9 v12 (ix2 r q)
      = GateSpec.cellAt (v0 (ix3 (0 : Fin 1) r q)) (v3 (ix3 (0 : Fin 1) r q)) (v9 (ix3 (0 : Fin 1) r q)) (v12 (ix2 r q)) := by
  unfold k1_pay1 GateSpec.cellAt
  rw [shapeCast_self]
  show FloatOps.addf (F := Ideal) (φ := .f32)
        (FloatOps.mulf (F := Ideal) (φ := .f32) (FloatOps.logistic (F := Ideal) (φ := .f32) (shapeCast S256x1024 v0 shapeCasts_S1x256x1024_S256x1024 (ix2 r q))) (v12 (ix2 r q)))
        (FloatOps.mulf (F := Ideal) (φ := .f32) (FloatOps.logistic (F := Ideal) (φ := .f32) (shapeCast S256x1024 v3 shapeCasts_S1x256x1024_S256x1024 (ix2 r q)))
          (FloatOps.tanh (F := Ideal) (φ := .f32) (shapeCast S256x1024 v9 shapeCasts_S1x256x1024_S256x1024 (ix2 r q)))) = _
  rw [drop_apply, drop_apply, drop_apply]
  rfl

/-- The new output's payload at row `r`, column `q`: the output gate's slab against the new cell's payload. -/
theorem pay2_apply (v0 v3 v6 v9 : Vec Ideal S1x256x1024 .f32) (v12 : Vec Ideal S256x1024 .f32) (r : Fin 256) (q : Fin 1024) :
    k1_pay2 (F := Ideal) v0 v3 v6 v9 v12 (ix2 r q)
      = GateSpec.outAt (v6 (ix3 (0 : Fin 1) r q)) (k1_pay1 (F := Ideal) v0 v3 v9 v12 (ix2 r q)) := by
  unfold k1_pay2 GateSpec.outAt
  show FloatOps.mulf (F := Ideal) (φ := .f32) (FloatOps.logistic (F := Ideal) (φ := .f32) (shapeCast S256x1024 v6 shapeCasts_S1x256x1024_S256x1024 (ix2 r q)))
        (FloatOps.tanh (F := Ideal) (φ := .f32) (k1_pay1 (F := Ideal) v0 v3 v9 v12 (ix2 r q))) = _
  rw [drop_apply]
  rfl

/-- The zero offsets of a whole-buffer access, as a constant function. -/
theorem offsets_zero : (![0, 0] : Fin 2 → Nat) = fun _ => 0 := funext fun a => by fin_cases a <;> rfl

/-- Gate 0's slab of the [4,256,1024] block, read at row r, column q: offset (0,0,0), unit strides. -/
theorem ld_slab0 (x0 : Vec Ideal S4x256x1024 .f32) (r : Fin 256) (q : Fin 1024) :
    View.ld x0 r1_0 (ix3 (0 : Fin 1) r q) = x0 (ix3 (0 : Fin 4) r q) := by
  show x0 (r1_0.idx (ix3 (0 : Fin 1) r q)) = _
  congr 1
  funext a; apply Fin.ext
  match a with
  | ⟨0, _⟩ => rfl
  | ⟨1, _⟩ => show 0 + 1 * r.val = r.val; omega
  | ⟨2, _⟩ => show 0 + 1 * q.val = q.val; omega

/-- Gate 1's slab: offset (1,0,0). -/
theorem ld_slab1 (x0 : Vec Ideal S4x256x1024 .f32) (r : Fin 256) (q : Fin 1024) :
    View.ld x0 r1_1 (ix3 (0 : Fin 1) r q) = x0 (ix3 (1 : Fin 4) r q) := by
  show x0 (r1_1.idx (ix3 (0 : Fin 1) r q)) = _
  congr 1
  funext a; apply Fin.ext
  match a with
  | ⟨0, _⟩ => rfl
  | ⟨1, _⟩ => show 0 + 1 * r.val = r.val; omega
  | ⟨2, _⟩ => show 0 + 1 * q.val = q.val; omega

/-- Gate 2's slab: offset (2,0,0). -/
theorem ld_slab2 (x0 : Vec Ideal S4x256x1024 .f32) (r : Fin 256) (q : Fin 1024) :
    View.ld x0 r1_2 (ix3 (0 : Fin 1) r q) = x0 (ix3 (2 : Fin 4) r q) := by
  show x0 (r1_2.idx (ix3 (0 : Fin 1) r q)) = _
  congr 1
  funext a; apply Fin.ext
  match a with
  | ⟨0, _⟩ => rfl
  | ⟨1, _⟩ => show 0 + 1 * r.val = r.val; omega
  | ⟨2, _⟩ => show 0 + 1 * q.val = q.val; omega

/-- Gate 3's slab: offset (3,0,0). -/
theorem ld_slab3 (x0 : Vec Ideal S4x256x1024 .f32) (r : Fin 256) (q : Fin 1024) :
    View.ld x0 r1_3 (ix3 (0 : Fin 1) r q) = x0 (ix3 (3 : Fin 4) r q) := by
  show x0 (r1_3.idx (ix3 (0 : Fin 1) r q)) = _
  congr 1
  funext a; apply Fin.ext
  match a with
  | ⟨0, _⟩ => rfl
  | ⟨1, _⟩ => show 0 + 1 * r.val = r.val; omega
  | ⟨2, _⟩ => show 0 + 1 * q.val = q.val; omega

/-- What one grid point leaves in the new cell's buffer, entry by entry, from the two blocks it read. -/
theorem cell_block (x0 : Vec Ideal S4x256x1024 .f32) (x1 : Vec Ideal S256x1024 .f32) (r : Fin 256) (q : Fin 1024) :
    out1_2 x0 x1 (ix2 r q)
      = GateSpec.cellAt (x0 (ix3 (0 : Fin 4) r q)) (x0 (ix3 (1 : Fin 4) r q)) (x0 (ix3 (3 : Fin 4) r q)) (x1 (ix2 r q)) := by
  unfold out1_2
  rw [View.canon_unit_zero offsets_zero, pay1_apply, ld_slab0, ld_slab1, ld_slab3, View.ld_unit_zero (S := S256x1024) offsets_zero]

/-- What one grid point leaves in the new output's buffer, entry by entry. -/
theorem out_block (x0 : Vec Ideal S4x256x1024 .f32) (x1 : Vec Ideal S256x1024 .f32) (r : Fin 256) (q : Fin 1024) :
    out1_3 x0 x1 (ix2 r q)
      = GateSpec.outAt (x0 (ix3 (2 : Fin 4) r q))
          (GateSpec.cellAt (x0 (ix3 (0 : Fin 4) r q)) (x0 (ix3 (1 : Fin 4) r q)) (x0 (ix3 (3 : Fin 4) r q)) (x1 (ix2 r q))) := by
  unfold out1_3
  rw [View.canon_unit_zero offsets_zero, pay2_apply, pay1_apply, ld_slab0, ld_slab1, ld_slab2, ld_slab3, View.ld_unit_zero (S := S256x1024) offsets_zero]

/-- The index maps over the four grid points: every window's block sits at rows 0, the inputs' column block is the
    output's, the gate axis of the first input is taken whole, and the column block index is at most 3. -/
theorem block_index_facts : ∀ t : Fin cfg1.N, win1_0.index t (0 : Fin 3) = 0 ∧ win1_0.index t (1 : Fin 3) = 0
    ∧ win1_0.index t (2 : Fin 3) = win1_2.index t (1 : Fin 2)
    ∧ win1_1.index t (0 : Fin 2) = 0 ∧ win1_1.index t (1 : Fin 2) = win1_2.index t (1 : Fin 2)
    ∧ win1_2.index t (0 : Fin 2) = 0 ∧ win1_2.index t (1 : Fin 2) ≤ 3
    ∧ win1_3.index t (0 : Fin 2) = 0 ∧ win1_3.index t (1 : Fin 2) = win1_2.index t (1 : Fin 2) :=
  (by decide +kernel : ∀ t : Fin grid1.N, _)

/-- Every column block is some point's. -/
theorem column_block_onto : ∀ (p : Fin 4), ∃ t : Fin cfg1.N, win1_2.index t = ![0, p.val] ∧ win1_3.index t = ![0, p.val] :=
  (by decide +kernel : ∀ (p : Fin 4), ∃ t : Fin grid1.N, win1_2.index t = ![0, p.val] ∧ win1_3.index t = ![0, p.val])

/-- The pre-activation block of point t at gate g, row r, column q is the array's entry at the same gate and row and
    at the column the new cell's block puts q. -/
theorem pre_blk (V : (c : Dev nD) → (b : Ref sig .tc) → Buf (Elt Ideal) ((c : Thread nD τ).loc b)) (c : Dev nD) (t : Fin cfg1.N)
    (g : Fin 4) (r : Fin 256) (q : Fin 1024) :
    iblk1 V c 0 t (ix3 g r q)
      = V c main_v8 (ix3 g ((((cfg1.win 2).blk t).view.emb (ix2 r q)) 0) ((((cfg1.win 2).blk t).view.emb (ix2 r q)) 1)) := by
  obtain ⟨e0, e1, e2, e3, e4, e5, e6, e7, e8⟩ := block_index_facts t
  show V c main_v8 (((cfg1.win 0).blk t).view.emb (ix3 g r q)) = _
  refine congrArg (V c main_v8) ?_
  funext a; apply Fin.ext
  match a with
  | ⟨0, _⟩ => show win1_0.index t (0 : Fin 3) * 4 + 1 * g.val = g.val; omega
  | ⟨1, _⟩ => show win1_0.index t (1 : Fin 3) * 256 + 1 * r.val = win1_2.index t (0 : Fin 2) * 256 + 1 * r.val; omega
  | ⟨2, _⟩ => show win1_0.index t (2 : Fin 3) * 1024 + 1 * q.val = win1_2.index t (1 : Fin 2) * 1024 + 1 * q.val; omega

/-- The old cell's block of point t at row r, column q is the array's entry where the new cell's block puts (r, q). -/
theorem hc_blk (V : (c : Dev nD) → (b : Ref sig .tc) → Buf (Elt Ideal) ((c : Thread nD τ).loc b)) (c : Dev nD) (t : Fin cfg1.N)
    (r : Fin 256) (q : Fin 1024) :
    iblk1 V c 1 t (ix2 r q) = V c main_v4 (((cfg1.win 2).blk t).view.emb (ix2 r q)) := by
  obtain ⟨e0, e1, e2, e3, e4, e5, e6, e7, e8⟩ := block_index_facts t
  show V c main_v4 (((cfg1.win 1).blk t).view.emb (ix2 r q)) = _
  refine congrArg (V c main_v4) ?_
  funext a; apply Fin.ext
  match a with
  | ⟨0, _⟩ => show win1_1.index t (0 : Fin 2) * 256 + 1 * r.val = win1_2.index t (0 : Fin 2) * 256 + 1 * r.val; omega
  | ⟨1, _⟩ => show win1_1.index t (1 : Fin 2) * 1024 + 1 * q.val = win1_2.index t (1 : Fin 2) * 1024 + 1 * q.val; omega

/-- The new output's block sits where the new cell's does. -/
theorem emb_out (t : Fin cfg1.N) (r : Fin 256) (q : Fin 1024) :
    ((cfg1.win 3).blk t).view.emb (ix2 r q) = ((cfg1.win 2).blk t).view.emb (ix2 r q) := by
  obtain ⟨e0, e1, e2, e3, e4, e5, e6, e7, e8⟩ := block_index_facts t
  funext a; apply Fin.ext
  match a with
  | ⟨0, _⟩ => show win1_3.index t (0 : Fin 2) * 256 + 1 * r.val = win1_2.index t (0 : Fin 2) * 256 + 1 * r.val; omega
  | ⟨1, _⟩ => show win1_3.index t (1 : Fin 2) * 1024 + 1 * q.val = win1_2.index t (1 : Fin 2) * 1024 + 1 * q.val; omega

/-- What point t writes back to the new cell's array is block t of the cell function of the arrays at the region's entry. -/
theorem flushed_cell (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (GateSpec.cellArr (V c main_v8) (V c main_v4)) := by
  show (cfg1.win 2).cut (grid1.coords t) ((dat1 (F := Ideal) V c).after 2 t) = _
  rw [after1_2]
  funext j
  obtain ⟨r, q, rfl⟩ : ∃ (r : Fin 256) (q : Fin 1024), j = ix2 r q := ⟨j 0, j 1, eq_ix2 j⟩
  show out1_2 (iblk1 V c 0 t) (iblk1 V c 1 t) (ix2 r q)
      = GateSpec.cellArr (V c main_v8) (V c main_v4) (((cfg1.win 2).blk t).view.emb (ix2 r q))
  rw [cell_block, pre_blk, pre_blk, pre_blk, hc_blk]
  rfl

/-- What point t writes back to the new output's array is block t of the output function of the arrays at the region's entry. -/
theorem flushed_out (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (GateSpec.outArr (V c main_v8) (V c main_v4)) := by
  show (cfg1.win 3).cut (grid1.coords t) ((dat1 (F := Ideal) V c).after 3 t) = _
  rw [after1_3]
  funext j
  obtain ⟨r, q, rfl⟩ : ∃ (r : Fin 256) (q : Fin 1024), j = ix2 r q := ⟨j 0, j 1, eq_ix2 j⟩
  show out1_3 (iblk1 V c 0 t) (iblk1 V c 1 t) (ix2 r q)
      = GateSpec.outArr (V c main_v8) (V c main_v4) (((cfg1.win 3).blk t).view.emb (ix2 r q))
  rw [out_block, pre_blk, pre_blk, pre_blk, pre_blk, hc_blk, emb_out]
  rfl

/-- An index of the new cell's array is in point t's block iff each coordinate is in the block's range on its axis. -/
theorem mem_cell_block (t : Fin cfg1.N) (i : S256x4096.Idx) :
    i ∈ ((cfg1.win 2).blk t).view.set ↔ ∀ a : Fin 2, win1_2.index t a * S256x1024.size a ≤ (i a).val ∧ (i a).val < win1_2.index t a * S256x1024.size a + S256x1024.size a := by
  show i ∈ ((View.whole main_v9_0).slice (win1_2.rect t)).set ↔ _
  rw [View.set_slice_whole, Rect.mem_set_unit]
  exact Iff.rfl

/-- The same for the new output's array. -/
theorem mem_out_block (t : Fin cfg1.N) (i : S256x4096.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole main_v9_1).slice (win1_3.rect t)).set ↔ _
  rw [View.set_slice_whole, Rect.mem_set_unit]
  exact Iff.rfl

/-- The four column blocks tile the new cell's array: column p is in the block of the point whose column block is p / 1024. -/
theorem cover_cell (i : S256x4096.Idx) :
    ∃ t : Fin cfg1.N, (cfg1.win 2).flush t = true ∧ i ∈ ((cfg1.win 2).blk t).view.set := by
  have hi0 : (i 0).val < 256 := (i 0).isLt
  have hi1 : (i 1).val < 4096 := (i 1).isLt
  obtain ⟨t, ht, -⟩ := column_block_onto ⟨(i 1).val / 1024, by omega⟩
  have q0 : win1_2.index t (0 : Fin 2) = 0 := congrFun ht 0
  have q1 : win1_2.index t (1 : Fin 2) = (i 1).val / 1024 := congrFun ht 1
  refine ⟨t, flush1_2 t, ?_⟩
  rw [mem_cell_block]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 1024 ≤ (i 1).val ∧ (i 1).val < win1_2.index t (1 : Fin 2) * 1024 + 1024; omega

/-- The four column blocks tile the new output's array. -/
theorem cover_out (i : S256x4096.Idx) :
    ∃ t : Fin cfg1.N, (cfg1.win 3).flush t = true ∧ i ∈ ((cfg1.win 3).blk t).view.set := by
  have hi0 : (i 0).val < 256 := (i 0).isLt
  have hi1 : (i 1).val < 4096 := (i 1).isLt
  obtain ⟨t, -, ht⟩ := column_block_onto ⟨(i 1).val / 1024, by omega⟩
  have q0 : win1_3.index t (0 : Fin 2) = 0 := congrFun ht 0
  have q1 : win1_3.index t (1 : Fin 2) = (i 1).val / 1024 := congrFun ht 1
  refine ⟨t, flush1_3 t, ?_⟩
  rw [mem_out_block]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 1024 ≤ (i 1).val ∧ (i 1).val < win1_3.index t (1 : Fin 2) * 1024 + 1024; omega

/-- The new cell's array (output window 2) after all 4 grid points, for any contents `V` at the region's entry. -/
theorem final1_cell (V : (c : Dev nD) → (b : Ref sig .tc) → Buf (Elt Ideal) ((c : Thread nD τ).loc b)) (c : Dev nD) :
    (dat1 (F := Ideal) V c).arrAt 2 cfg1.N = GateSpec.cellArr (V c main_v8) (V c main_v4) :=
  (dat1 (F := Ideal) V c).arrAt_eq_of_cover 2 (GateSpec.cellArr (V c main_v8) (V c main_v4)) (fun t _ => flushed_cell V c t) cover_cell

/-- The new output's array (output window 3) after all 4 grid points. -/
theorem final1_out (V : (c : Dev nD) → (b : Ref sig .tc) → Buf (Elt Ideal) ((c : Thread nD τ).loc b)) (c : Dev nD) :
    (dat1 (F := Ideal) V c).arrAt 3 cfg1.N = GateSpec.outArr (V c main_v8) (V c main_v4) :=
  (dat1 (F := Ideal) V c).arrAt_eq_of_cover 3 (GateSpec.outArr (V c main_v8) (V c main_v4)) (fun t _ => flushed_out V c t) cover_out

end Cert.KernelIdeal.Reg1

end
-- ==== Proof.KValue.lean ====
/-
  The program's two results as functions of its arguments. The host reshapes hand the first kernel the flattened
  weights and states and the summed bias; the first kernel's output array is the pre-activation of those; the second
  kernel reads it and the flattened old cell and leaves the new cell and the new output as flat [256, 4096] arrays;
  the closing reshapes give them their [256, 64, 64] form. Composing the four steps, the result buffers hold
  `GateSpec.outOf` and `GateSpec.cellOf` of the argument arrays.
-/
import proofs.«118922_j54468775248255_1_alg».proof.Proof.Gen.KernelIdeal.Frame
import proofs.«118922_j54468775248255_1_alg».proof.Proof.GateSpec
import proofs.«118922_j54468775248255_1_alg».proof.Proof.KReg0
import proofs.«118922_j54468775248255_1_alg».proof.Proof.KReg1
import Idealize.ShloMosaic.Lib.StableHlo.Run

set_option maxRecDepth 16384

noncomputable section

namespace Cert.KernelIdeal.KValue

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

/-! ## What the first kernel is handed: the host reshapes and the bias sum -/

theorem entry_wd (c : Dev nD) : V1 m ρ c main_v0 = shapeCast S4x4096x512 (m ((c : Thread nD τ).loc main_arg4)) shapeCasts_S4x64x64x512_S4x4096x512 := by
  show StableHlo.after hostOps0 (W0 m ρ c) (Proc.devRef .tc main_v0) = _
  after_results
  rfl

theorem entry_ww (c : Dev nD) : V1 m ρ c main_v1 = shapeCast S4x4096x512 (m ((c : Thread nD τ).loc main_arg6)) shapeCasts_S4x64x64x512_S4x4096x512 := by
  show StableHlo.after hostOps0 (W0 m ρ c) (Proc.devRef .tc main_v1) = _
  after_results
  rfl

theorem entry_wu (c : Dev nD) : V1 m ρ c main_v2 = shapeCast S4x4096x4096 (m ((c : Thread nD τ).loc main_arg5)) shapeCasts_S4x64x64x64x64_S4x4096x4096 := by
  show StableHlo.after hostOps0 (W0 m ρ c) (Proc.devRef .tc main_v2) = _
  after_results
  rfl

theorem entry_hs (c : Dev nD) : V1 m ρ c main_v3 = shapeCast S256x4096 (m ((c : Thread nD τ).loc main_arg1)) shapeCasts_S256x64x64_S256x4096 := by
  show StableHlo.after hostOps0 (W0 m ρ c) (Proc.devRef .tc main_v3) = _
  after_results
  rfl

theorem entry_hc (c : Dev nD) : V1 m ρ c main_v4 = shapeCast S256x4096 (m ((c : Thread nD τ).loc main_arg3)) shapeCasts_S256x64x64_S256x4096 := by
  show StableHlo.after hostOps0 (W0 m ρ c) (Proc.devRef .tc main_v4) = _
  after_results
  rfl

theorem entry_bias (c : Dev nD) : V1 m ρ c main_v7
    = (shapeCast S4x1x4096 (addf (addf ((m ((c : Thread nD τ).loc main_arg7)) : FVec Ideal S4x64x64 .f32) ((m ((c : Thread nD τ).loc main_arg8)) : FVec Ideal S4x64x64 .f32)) ((m ((c : Thread nD τ).loc main_arg9)) : FVec Ideal S4x64x64 .f32)) shapeCasts_S4x64x64_S4x1x4096 : FVec Ideal S4x1x4096 .f32) := by
  show StableHlo.after hostOps0 (W0 m ρ c) (Proc.devRef .tc main_v7) = _
  after_results
  rfl

theorem entry_hu (c : Dev nD) : V1 m ρ c main_arg2 = (m ((c : Thread nD τ).loc main_arg2)) := by
  show StableHlo.after hostOps0 (W0 m ρ c) (Proc.devRef .tc main_arg2) = _
  after_results

theorem entry_x (c : Dev nD) : V1 m ρ c main_arg0 = (m ((c : Thread nD τ).loc main_arg0)) := by
  show StableHlo.after hostOps0 (W0 m ρ c) (Proc.devRef .tc main_arg0) = _
  after_results

/-! ## Between the kernels -/

/-- The first kernel's output array, as the second kernel finds it: the pre-activation of the arguments. -/
theorem mid_pre (c : Dev nD) : V2 m ρ c main_v8 = GateSpec.preOf (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h := (W2_arr m ρ c 7).trans (Reg0.final0 (V1 m ρ) c)
  rw [entry_ww, entry_wd, entry_wu, entry_hu, entry_x, entry_hs, entry_bias] at h
  exact h

/-- The flattened old cell passes the first kernel untouched. -/
theorem mid_hc (c : Dev nD) : V2 m ρ c main_v4 = shapeCast S256x4096 (m ((c : Thread nD τ).loc main_arg3)) shapeCasts_S256x64x64_S256x4096 :=
  (W2_of_ne m ρ c main_v4 (by decide)).trans (entry_hc m ρ c)

/-! ## After the second kernel, and the closing reshapes -/

theorem flat_out (c : Dev nD) : W3 m ρ c (Proc.devRef .tc main_v9_1)
    = GateSpec.outArr (GateSpec.preOf (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (shapeCast S256x4096 (m ((c : Thread nD τ).loc main_arg3)) shapeCasts_S256x64x64_S256x4096) := by
  have h := (W3_arr m ρ c 3).trans (Reg1.final1_out (V2 m ρ) c)
  rw [mid_pre, mid_hc] at h
  exact h

theorem flat_cell (c : Dev nD) : W3 m ρ c (Proc.devRef .tc main_v9_0)
    = GateSpec.cellArr (GateSpec.preOf (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (shapeCast S256x4096 (m ((c : Thread nD τ).loc main_arg3)) shapeCasts_S256x64x64_S256x4096) := by
  have h := (W3_arr m ρ c 2).trans (Reg1.final1_cell (V2 m ρ) c)
  rw [mid_pre, mid_hc] at h
  exact h

/-- The first result buffer at the program's end: the new output. -/
theorem result_out (c : Dev nD) : W4 m ρ c (Proc.devRef .tc main_v10) = GateSpec.outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W3 m ρ c) (Proc.devRef .tc main_v10) = _
  after_results
  rw [flat_out]
  rfl

/-- The second result buffer at the program's end: the new cell. -/
theorem result_cell (c : Dev nD) : W4 m ρ c (Proc.devRef .tc main_v11) = GateSpec.cellOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W3 m ρ c) (Proc.devRef .tc main_v11) = _
  after_results
  rw [flat_cell]
  rfl

end Cert.KernelIdeal.KValue

end
-- ==== Proof.RefPre.lean ====
/-
  The reference's gate pre-activation, read at one entry. The reference contracts the weights' last axis against the
  states by `dot_general`, moves the batch axis behind the gate axis, and adds the broadcast sum of the three biases;
  at gate g, batch row n and matrix position (a, b) this is the pre-activation `GateSpec.preOf` at the flattened
  position p = 64·a + b: the row-major reshapes on the kernel's side put entry (g, a, b, k) of a weight at (g, p, k),
  and the biases' sum is the same in either order (addition of extended reals is commutative and associative).
-/
import proofs.«118922_j54468775248255_1_alg».proof.Proof.Gen.ReferenceIdeal.Read
import proofs.«118922_j54468775248255_1_alg».proof.Proof.GateSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.ValueIdx Cert.ReferenceIdeal Cert.ReferenceIdeal.Read

/-- The flattened position 64·a + b of the matrix entry (a, b). -/
abbrev flat (a b : Fin 64) : Fin 4096 := ⟨a.val * 64 + b.val, by have := a.isLt; have := b.isLt; omega⟩

/-- The first contraction reads the batch row's states … -/
private theorem lidx0_eq (g : Fin 4) (n : Fin 256) (a b : Fin 64) (k : Fin 512) :
    lidx_main_v0 (idx_main_v1 (ix4 g n a b)) k = ix2 n k :=
  funext fun d => Fin.ext (by match d with | ⟨0, _⟩ => rfl | ⟨1, _⟩ => rfl)

/-- … against the weight's row (g, a, b). -/
private theorem ridx0_eq (g : Fin 4) (n : Fin 256) (a b : Fin 64) (k : Fin 512) :
    ridx_main_v0 (idx_main_v1 (ix4 g n a b)) k = ix4 g a b k :=
  funext fun d => Fin.ext (by match d with | ⟨0, _⟩ => rfl | ⟨1, _⟩ => rfl | ⟨2, _⟩ => rfl | ⟨3, _⟩ => rfl)

/-- The second contraction reads the batch row's inputs … -/
private theorem lidx2_eq (g : Fin 4) (n : Fin 256) (a b : Fin 64) (k : Fin 512) :
    lidx_main_v2 (idx_main_v3 (ix4 g n a b)) k = ix2 n k :=
  funext fun d => Fin.ext (by match d with | ⟨0, _⟩ => rfl | ⟨1, _⟩ => rfl)

/-- … against the weight's row (g, a, b). -/
private theorem ridx2_eq (g : Fin 4) (n : Fin 256) (a b : Fin 64) (k : Fin 512) :
    ridx_main_v2 (idx_main_v3 (ix4 g n a b)) k = ix4 g a b k :=
  funext fun d => Fin.ext (by match d with | ⟨0, _⟩ => rfl | ⟨1, _⟩ => rfl | ⟨2, _⟩ => rfl | ⟨3, _⟩ => rfl)

/-- The row-major position ((g·256 + n)·64 + a)·64 + b has quotient n by 4096 modulo 256: the third contraction reads
    the batch row's flattened matrix state … -/
private theorem lidx6_eq (g : Fin 4) (n : Fin 256) (a b : Fin 64) (k : Fin 4096) :
    lidx_main_v6 (idx_main_v7 (idx_main_v8 (ix4 g n a b))) k = ix2 n k :=
  funext fun d => Fin.ext (by
    have hg := g.isLt; have hn := n.isLt; have ha := a.isLt; have hb := b.isLt
    match d with
    | ⟨0, _⟩ => show (((g.val * 256 + n.val) * 64 + a.val) * 64 + b.val) / 4096 % 256 = n.val; omega
    | ⟨1, _⟩ => rfl)

/-- … and has quotient g by 256·4096 and remainder 64·a + b modulo 4096: against the flattened weight's row (g, 64·a + b). -/
private theorem ridx6_eq (g : Fin 4) (n : Fin 256) (a b : Fin 64) (k : Fin 4096) :
    ridx_main_v6 (idx_main_v7 (idx_main_v8 (ix4 g n a b))) k = ix3 g (flat a b) k :=
  funext fun d => Fin.ext (by
    have hg := g.isLt; have hn := n.isLt; have ha := a.isLt; have hb := b.isLt
    match d with
    | ⟨0, _⟩ => show (((g.val * 256 + n.val) * 64 + a.val) * 64 + b.val) / 1048576 = g.val; omega
    | ⟨1, _⟩ => show (((g.val * 256 + n.val) * 64 + a.val) * 64 + b.val) % 4096 = a.val * 64 + b.val; omega
    | ⟨2, _⟩ => rfl)

/-- The broadcast bias is read at (g, a, b), whatever the batch row. -/
private theorem bidx_eq (g : Fin 4) (n : Fin 256) (a b : Fin 64) :
    idx_main_v13 (idx_main_v14 (ix4 g n a b)) = ix3 g a b :=
  funext fun d => Fin.ext (by match d with | ⟨0, _⟩ => rfl | ⟨1, _⟩ => rfl | ⟨2, _⟩ => rfl)

/-- A weight [4, 64, 64, 512] flattened to [4, 4096, 512]: entry (g, 64·a + b, k) is entry (g, a, b, k). -/
private theorem flatW_apply (w : FVec Ideal S4x64x64x512 .f32) (g : Fin 4) (a b : Fin 64) (k : Fin 512) :
    shapeCast KernelIdeal.S4x4096x512 w KernelIdeal.Gen.shapeCasts_S4x64x64x512_S4x4096x512 (ix3 g (flat a b) k)
      = w (ix4 g a b k) :=
  shapeCast_apply w _ (ix3 g (flat a b) k) (ix4 g a b k) (by
    rewrite [Shape.rowMajor_val_four, Shape.rowMajor_val_three]
    have hg := g.isLt; have ha := a.isLt; have hb := b.isLt; have hk := k.isLt
    show ((g.val * 64 + a.val) * 64 + b.val) * 512 + k.val = (g.val * 4096 + (a.val * 64 + b.val)) * 512 + k.val
    omega)

/-- A bias [4, 64, 64] flattened to [4, 1, 4096]: entry (g, 0, 64·a + b) is entry (g, a, b). -/
private theorem flatB_apply (w : FVec Ideal S4x64x64 .f32) (g : Fin 4) (a b : Fin 64) :
    shapeCast KernelIdeal.S4x1x4096 w KernelIdeal.Gen.shapeCasts_S4x64x64_S4x1x4096 (ix3 g (0 : Fin 1) (flat a b))
      = w (ix3 g a b) :=
  shapeCast_apply w _ (ix3 g (0 : Fin 1) (flat a b)) (ix3 g a b) (by
    rewrite [Shape.rowMajor_val_three, Shape.rowMajor_val_three]
    have hg := g.isLt; have ha := a.isLt; have hb := b.isLt
    show (g.val * 64 + a.val) * 64 + b.val = (g.val * 1 + 0) * 4096 + (a.val * 64 + b.val)
    omega)

/-- The reference's pre-activation (the stage before the four gate slices) at gate `g`, batch row `n`, entry `(a, b)`. -/
theorem ref_pre (x0 : FVec Ideal S256x512 .f32) (x1 : FVec Ideal S256x64x64 .f32) (x2 : FVec Ideal S256x512 .f32)
    (x4 : FVec Ideal S4x64x64x512 .f32) (x5 : FVec Ideal S4x64x64x64x64 .f32) (x6 : FVec Ideal S4x64x64x512 .f32)
    (x7 x8 x9 : FVec Ideal S4x64x64 .f32)
    (g : Fin 4) (n : Fin 256) (a b : Fin 64) :
    val_main_v15 (F := Ideal) x0 x1 x2 x4 x5 x6 x7 x8 x9 (ix4 g n a b)
      = GateSpec.preOf x0 x1 x2 x4 x5 x6 x7 x8 x9 (ix3 g n (flat a b)) := by
  rw [val_main_v15_apply, val_main_v10_apply, val_main_v9_apply, val_main_v1_apply, val_main_v3_apply, val_main_v0_apply,
    val_main_v2_apply, val_main_v8_apply, val_main_v7_apply, val_main_v6_apply, val_main_v14_apply, val_main_v13_apply,
    val_main_v12_apply, val_main_v11_apply]
  unfold GateSpec.preOf
  rw [GateSpec.preArr_apply]
  unfold GateSpec.preAt
  rw [bidx_eq, flatB_apply, addf_apply, addf_apply]
  simp only [lidx0_eq, ridx0_eq, lidx2_eq, ridx2_eq, lidx6_eq, ridx6_eq, flatW_apply, Ideal.addf_def, Ideal.subf_def]
  rw [add_comm (x9 (ix3 g a b)) (x7 (ix3 g a b)), add_right_comm (x7 (ix3 g a b)) (x9 (ix3 g a b)) (x8 (ix3 g a b))]
  rfl

end Cert.ReferenceIdeal.RefValue

end
-- ==== Proof.RefGates.lean ====
/-
  The reference's two results are the program's two functions of the arguments. Each gate slices the pre-activation
  at its index, the logistic function is spelt 1 / (1 + e^(−t)) on the host, which is the same extended-real function
  as the kernel's σ, and the results are read at (n, a, b) where the kernel's flat arrays are read at (n, 64·a + b).
-/
import proofs.«118922_j54468775248255_1_alg».proof.Proof.RefPre

set_option maxRecDepth 16384

noncomputable section

namespace Cert.ReferenceIdeal.RefValue

open Idealize.ShloMosaic Idealize.ShloMosaic.ValueIdx Cert.ReferenceIdeal Cert.ReferenceIdeal.Read

/-- The bit pattern 0x3F800000 is the number 1. -/
theorem one_f32 : Ideal.ofBits .f32 0x3F800000#32 = 1 := IdealRules.sign_bit.ideal_onePat .f32

/-- The host's spelling 1 / (1 + e^(−t)) is the logistic function of t. -/
theorem host_logistic (t : Ideal .f32) :
    FloatOps.hostDivf (F := Ideal) (φ := .f32) (FloatOps.ofBits .f32 0x3F800000#32)
        (FloatOps.addf (FloatOps.ofBits .f32 0x3F800000#32) (FloatOps.hostUnary .exp (FloatOps.hostNegf t)))
      = Ideal.logistic t := by
  rw [Ideal.ofBits_def, one_f32]
  rfl

/-- Gate 0's slice of the pre-activation, read through the reshape that drops the unit axis: entry (n, a, b) of the
    gate is entry (0, n, a, b) of the stack. -/
theorem idx_gate0 (n : Fin 256) (a b : Fin 64) :
    idx_main_v16 (idx_main_v17 (ix3 n a b)) = ix4 (0 : Fin 4) n a b := by
  have hn := n.isLt; have ha := a.isLt; have hb := b.isLt
  funext d
  apply Fin.ext
  match d with
  | ⟨0, _⟩ => rfl
  | ⟨1, _⟩ => show ((n.val * 64 + a.val) * 64 + b.val) / 4096 % 256 = n.val; omega
  | ⟨2, _⟩ => show ((n.val * 64 + a.val) * 64 + b.val) / 64 % 64 = a.val; omega
  | ⟨3, _⟩ => show ((n.val * 64 + a.val) * 64 + b.val) % 64 = b.val; omega

/-- Gate 1's slice of the pre-activation, read through the reshape that drops the unit axis: entry (n, a, b) of the
    gate is entry (1, n, a, b) of the stack. -/
theorem idx_gate1 (n : Fin 256) (a b : Fin 64) :
    idx_main_v24 (idx_main_v25 (ix3 n a b)) = ix4 (1 : Fin 4) n a b := by
  have hn := n.isLt; have ha := a.isLt; have hb := b.isLt
  funext d
  apply Fin.ext
  match d with
  | ⟨0, _⟩ => rfl
  | ⟨1, _⟩ => show ((n.val * 64 + a.val) * 64 + b.val) / 4096 % 256 = n.val; omega
  | ⟨2, _⟩ => show ((n.val * 64 + a.val) * 64 + b.val) / 64 % 64 = a.val; omega
  | ⟨3, _⟩ => show ((n.val * 64 + a.val) * 64 + b.val) % 64 = b.val; omega

/-- Gate 2's slice of the pre-activation, read through the reshape that drops the unit axis: entry (n, a, b) of the
    gate is entry (2, n, a, b) of the stack. -/
theorem idx_gate2 (n : Fin 256) (a b : Fin 64) :
    idx_main_v32 (idx_main_v33 (ix3 n a b)) = ix4 (2 : Fin 4) n a b := by
  have hn := n.isLt; have ha := a.isLt; have hb := b.isLt
  funext d
  apply Fin.ext
  match d with
  | ⟨0, _⟩ => rfl
  | ⟨1, _⟩ => show ((n.val * 64 + a.val) * 64 + b.val) / 4096 % 256 = n.val; omega
  | ⟨2, _⟩ => show ((n.val * 64 + a.val) * 64 + b.val) / 64 % 64 = a.val; omega
  | ⟨3, _⟩ => show ((n.val * 64 + a.val) * 64 + b.val) % 64 = b.val; omega

/-- Gate 3's slice of the pre-activation, read through the reshape that drops the unit axis: entry (n, a, b) of the
    gate is entry (3, n, a, b) of the stack. -/
theorem idx_gate3 (n : Fin 256) (a b : Fin 64) :
    idx_main_v40 (idx_main_v41 (ix3 n a b)) = ix4 (3 : Fin 4) n a b := by
  have hn := n.isLt; have ha := a.isLt; have hb := b.isLt
  funext d
  apply Fin.ext
  match d with
  | ⟨0, _⟩ => rfl
  | ⟨1, _⟩ => show ((n.val * 64 + a.val) * 64 + b.val) / 4096 % 256 = n.val; omega
  | ⟨2, _⟩ => show ((n.val * 64 + a.val) * 64 + b.val) / 64 % 64 = a.val; omega
  | ⟨3, _⟩ => show ((n.val * 64 + a.val) * 64 + b.val) % 64 = b.val; omega

/-- Gate 0: the logistic function of the pre-activation at (0, n, 64·a + b). -/
theorem gate0 (x0 : FVec Ideal S256x512 .f32) (x1 : FVec Ideal S256x64x64 .f32) (x2 : FVec Ideal S256x512 .f32)
    (x4 : FVec Ideal S4x64x64x512 .f32) (x5 : FVec Ideal S4x64x64x64x64 .f32) (x6 : FVec Ideal S4x64x64x512 .f32)
    (x7 x8 x9 : FVec Ideal S4x64x64 .f32) (n : Fin 256) (a b : Fin 64) :
    val_main_v23 (F := Ideal) x0 x1 x2 x4 x5 x6 x7 x8 x9 (ix3 n a b)
      = Ideal.logistic (GateSpec.preOf x0 x1 x2 x4 x5 x6 x7 x8 x9 (ix3 (0 : Fin 4) n (flat a b))) := by
  rw [val_main_v23_apply, val_main_v22_apply, val_main_cst_0_apply, val_main_v21_apply, val_main_v20_apply,
    val_main_cst_apply, val_main_v19_apply, val_main_v18_apply, val_main_v17_apply, val_main_v16_apply,
    idx_gate0, ref_pre]
  exact host_logistic _

/-- Gate 1: the logistic function of the pre-activation at (1, n, 64·a + b). -/
theorem gate1 (x0 : FVec Ideal S256x512 .f32) (x1 : FVec Ideal S256x64x64 .f32) (x2 : FVec Ideal S256x512 .f32)
    (x4 : FVec Ideal S4x64x64x512 .f32) (x5 : FVec Ideal S4x64x64x64x64 .f32) (x6 : FVec Ideal S4x64x64x512 .f32)
    (x7 x8 x9 : FVec Ideal S4x64x64 .f32) (n : Fin 256) (a b : Fin 64) :
    val_main_v31 (F := Ideal) x0 x1 x2 x4 x5 x6 x7 x8 x9 (ix3 n a b)
      = Ideal.logistic (GateSpec.preOf x0 x1 x2 x4 x5 x6 x7 x8 x9 (ix3 (1 : Fin 4) n (flat a b))) := by
  rw [val_main_v31_apply, val_main_v30_apply, val_main_cst_2_apply, val_main_v29_apply, val_main_v28_apply,
    val_main_cst_1_apply, val_main_v27_apply, val_main_v26_apply, val_main_v25_apply, val_main_v24_apply,
    idx_gate1, ref_pre]
  exact host_logistic _

/-- Gate 2: the logistic function of the pre-activation at (2, n, 64·a + b). -/
theorem gate2 (x0 : FVec Ideal S256x512 .f32) (x1 : FVec Ideal S256x64x64 .f32) (x2 : FVec Ideal S256x512 .f32)
    (x4 : FVec Ideal S4x64x64x512 .f32) (x5 : FVec Ideal S4x64x64x64x64 .f32) (x6 : FVec Ideal S4x64x64x512 .f32)
    (x7 x8 x9 : FVec Ideal S4x64x64 .f32) (n : Fin 256) (a b : Fin 64) :
    val_main_v39 (F := Ideal) x0 x1 x2 x4 x5 x6 x7 x8 x9 (ix3 n a b)
      = Ideal.logistic (GateSpec.preOf x0 x1 x2 x4 x5 x6 x7 x8 x9 (ix3 (2 : Fin 4) n (flat a b))) := by
  rw [val_main_v39_apply, val_main_v38_apply, val_main_cst_4_apply, val_main_v37_apply, val_main_v36_apply,
    val_main_cst_3_apply, val_main_v35_apply, val_main_v34_apply, val_main_v33_apply, val_main_v32_apply,
    idx_gate2, ref_pre]
  exact host_logistic _

/-- Gate 3: the hyperbolic tangent of the pre-activation at (3, n, 64·a + b). -/
theorem gate3 (x0 : FVec Ideal S256x512 .f32) (x1 : FVec Ideal S256x64x64 .f32) (x2 : FVec Ideal S256x512 .f32)
    (x4 : FVec Ideal S4x64x64x512 .f32) (x5 : FVec Ideal S4x64x64x64x64 .f32) (x6 : FVec Ideal S4x64x64x512 .f32)
    (x7 x8 x9 : FVec Ideal S4x64x64 .f32) (n : Fin 256) (a b : Fin 64) :
    val_main_v42 (F := Ideal) x0 x1 x2 x4 x5 x6 x7 x8 x9 (ix3 n a b)
      = Ideal.tanh (GateSpec.preOf x0 x1 x2 x4 x5 x6 x7 x8 x9 (ix3 (3 : Fin 4) n (flat a b))) := by
  rw [val_main_v42_apply, val_main_v41_apply, val_main_v40_apply, idx_gate3, ref_pre]
  rfl

/-- The row-major reshape [256, 4096] → [256, 64, 64] read at (n, a, b) is the operand at (n, 64·a + b). -/
theorem unflat_apply (y : FVec Ideal S256x4096 .f32) (h : S256x4096.ShapeCasts S256x64x64) (n : Fin 256) (a b : Fin 64) :
    shapeCast S256x64x64 y h (ix3 n a b) = y (ix2 n (flat a b)) :=
  shapeCast_apply y h (ix3 n a b) (ix2 n (flat a b))
    (by rewrite [Shape.rowMajor_val_two, Shape.rowMajor_val_three]
        show n.val * 4096 + (a.val * 64 + b.val) = (n.val * 64 + a.val) * 64 + b.val; omega)

/-- The row-major reshape [256, 64, 64] → [256, 4096] read at (n, 64·a + b) is the operand at (n, a, b). -/
theorem flat_apply (y : FVec Ideal S256x64x64 .f32) (h : S256x64x64.ShapeCasts S256x4096) (n : Fin 256) (a b : Fin 64) :
    shapeCast S256x4096 y h (ix2 n (flat a b)) = y (ix3 n a b) :=
  shapeCast_apply y h (ix2 n (flat a b)) (ix3 n a b)
    (by rewrite [Shape.rowMajor_val_two, Shape.rowMajor_val_three]
        show (n.val * 64 + a.val) * 64 + b.val = n.val * 4096 + (a.val * 64 + b.val); omega)

/-- The reference's new cell at (n, a, b). -/
theorem ref_cell_apply (x0 : FVec Ideal S256x512 .f32) (x1 : FVec Ideal S256x64x64 .f32) (x2 : FVec Ideal S256x512 .f32) (x3 : FVec Ideal S256x64x64 .f32)
    (x4 : FVec Ideal S4x64x64x512 .f32) (x5 : FVec Ideal S4x64x64x64x64 .f32) (x6 : FVec Ideal S4x64x64x512 .f32)
    (x7 x8 x9 : FVec Ideal S4x64x64 .f32) (n : Fin 256) (a b : Fin 64) :
    val_main_v45 (F := Ideal) x0 x1 x2 x3 x4 x5 x6 x7 x8 x9 (ix3 n a b)
      = GateSpec.cellOf x0 x1 x2 x3 x4 x5 x6 x7 x8 x9 (ix3 n a b) := by
  rw [val_main_v45_apply, val_main_v43_apply, val_main_v44_apply, gate0, gate1, gate3]
  unfold GateSpec.cellOf
  rw [unflat_apply, GateSpec.cellArr_apply, flat_apply]
  rfl

/-- The reference's second result (the new cell) is `GateSpec.cellOf` of the arguments. -/
theorem ref_cell (x0 : FVec Ideal S256x512 .f32) (x1 : FVec Ideal S256x64x64 .f32) (x2 : FVec Ideal S256x512 .f32) (x3 : FVec Ideal S256x64x64 .f32)
    (x4 : FVec Ideal S4x64x64x512 .f32) (x5 : FVec Ideal S4x64x64x64x64 .f32) (x6 : FVec Ideal S4x64x64x512 .f32)
    (x7 x8 x9 : FVec Ideal S4x64x64 .f32) :
    val_main_v45 (F := Ideal) x0 x1 x2 x3 x4 x5 x6 x7 x8 x9 = GateSpec.cellOf x0 x1 x2 x3 x4 x5 x6 x7 x8 x9 := by
  funext i
  obtain ⟨n, a, b, rfl⟩ : ∃ (n : Fin 256) (a b : Fin 64), i = ix3 n a b := ⟨i 0, i 1, i 2, eq_ix3 i⟩
  exact ref_cell_apply x0 x1 x2 x3 x4 x5 x6 x7 x8 x9 n a b

/-- The reference's first result (the new output) is `GateSpec.outOf` of the arguments. -/
theorem ref_out (x0 : FVec Ideal S256x512 .f32) (x1 : FVec Ideal S256x64x64 .f32) (x2 : FVec Ideal S256x512 .f32) (x3 : FVec Ideal S256x64x64 .f32)
    (x4 : FVec Ideal S4x64x64x512 .f32) (x5 : FVec Ideal S4x64x64x64x64 .f32) (x6 : FVec Ideal S4x64x64x512 .f32)
    (x7 x8 x9 : FVec Ideal S4x64x64 .f32) :
    val_main_v47 (F := Ideal) x0 x1 x2 x3 x4 x5 x6 x7 x8 x9 = GateSpec.outOf x0 x1 x2 x3 x4 x5 x6 x7 x8 x9 := by
  funext i
  obtain ⟨n, a, b, rfl⟩ : ∃ (n : Fin 256) (a b : Fin 64), i = ix3 n a b := ⟨i 0, i 1, i 2, eq_ix3 i⟩
  rw [val_main_v47_apply, val_main_v46_apply, gate2, ref_cell_apply]
  unfold GateSpec.outOf GateSpec.cellOf
  rw [unflat_apply, unflat_apply, GateSpec.outArr_apply]
  rfl

end Cert.ReferenceIdeal.RefValue

end
-- ==== Proof.lean ====
/-
  The certificate's claims, assembled.

  At the ideal instance both programs compute, for batch row n and matrix entry (a, b) (flattened position
  p = 64·a + b), the four gates' pre-activations
      pre[g] = Σ_u hu[n, u]·Ww[g, a, b, u] − Σ_i x[n, i]·Wd[g, a, b, i] + Σ_q hs[n, q]·Wu[g, p, q] + (Bd + Bu + Bw)[g, a, b]
  and from them the new cell c = σ(pre[0])·hc + σ(pre[1])·tanh(pre[3]) and the new output os = σ(pre[2])·tanh(c).
  The kernel does this in two pallas_calls over flattened arrays (the products as matrix products against transposed
  weight blocks, accumulated from zero), the reference with three `dot_general`s and the logistic function written
  out as 1 / (1 + e^(−t)); on the extended reals these are the same functions of the arguments, entry by entry, and
  the only law used between them is that addition is commutative and associative (the order of the three biases).
  The word-level and idealized kernels' frames are the generated ones; the reference's frame is its generated run with
  the results dropped; the ideal pass rewrote nothing, so `preserves` is trivial.
-/
import proofs.«118922_j54468775248255_1_alg».proof.Defs
import proofs.«118922_j54468775248255_1_alg».proof.Proof.Gen.Kernel
import proofs.«118922_j54468775248255_1_alg».proof.Proof.Gen.Kernel.Skeleton
import proofs.«118922_j54468775248255_1_alg».proof.Proof.Gen.Kernel.Launch
import proofs.«118922_j54468775248255_1_alg».proof.Proof.Gen.Kernel.Points
import proofs.«118922_j54468775248255_1_alg».proof.Proof.Gen.Kernel.Frame
import proofs.«118922_j54468775248255_1_alg».proof.Proof.Gen.KernelIdeal
import proofs.«118922_j54468775248255_1_alg».proof.Proof.Gen.KernelIdeal.Skeleton
import proofs.«118922_j54468775248255_1_alg».proof.Proof.Gen.KernelIdeal.Launch
import proofs.«118922_j54468775248255_1_alg».proof.Proof.Gen.KernelIdeal.Points
import proofs.«118922_j54468775248255_1_alg».proof.Proof.Gen.KernelIdeal.Frame
import proofs.«118922_j54468775248255_1_alg».proof.Proof.Gen.ReferenceIdeal
import proofs.«118922_j54468775248255_1_alg».proof.Proof.Gen.Pre_finite_inputs
import proofs.«118922_j54468775248255_1_alg».proof.Proof.Gen.ReferenceIdeal.Run
import proofs.«118922_j54468775248255_1_alg».proof.Proof.Gen.ReferenceIdeal.Read
import proofs.«118922_j54468775248255_1_alg».proof.Proof.GateSpec
import proofs.«118922_j54468775248255_1_alg».proof.Proof.KernelIdealRun
import proofs.«118922_j54468775248255_1_alg».proof.Proof.KValue
import proofs.«118922_j54468775248255_1_alg».proof.Proof.RefGates
import Idealize.ShloMosaic.Adequacy
import Idealize.ShloMosaic.Init

set_option maxRecDepth 16384

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its generated run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the new output and the new cell at `GateSpec.outOf` and `GateSpec.cellOf` of the
    (agreeing) argument arrays. -/
theorem algebraic : Cert.algebraic_KernelIdeal_ReferenceIdeal := by
  intro m ρ m' ρ' _ hagree
  refine ⟨fun c => GateSpec.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => GateSpec.cellOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KValue.result_out m ρ c), (h c).2.1.trans (Cert.KernelIdeal.KValue.result_cell m ρ c), (h c).2.2⟩)
      (Cert.KernelIdeal.GenRun.run_W4 m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v47_eq, Cert.ReferenceIdeal.RefValue.ref_out,
        (hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2]
    · rw [Cert.ReferenceIdeal.Read.val_main_v45_eq, Cert.ReferenceIdeal.RefValue.ref_cell,
        (hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
